-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S1x512 : Shape := ⟨2, ![1, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg1 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x512 .f32) (main_arg1 : IVec S131072 32) (main_arg2 : FVec F S1x512 .f32) (main_arg3 : FVec F S1x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 32 := constantI S_ 32 8#32
  fn_part1 (F := F) main_arg1 main_v13 main_v15 main_c_5
-- ==== Kernel.lean ====
abbrev S131072x512 : Shape := ⟨2, ![131072, 512]⟩
abbrev S131072 : Shape := ⟨1, ![131072]⟩
abbrev S1x512 : Shape := ⟨2, ![1, 512]⟩
abbrev S_ : Shape := ⟨0, ![]⟩
abbrev S131072x1 : Shape := ⟨2, ![131072, 1]⟩
abbrev S8 : Shape := ⟨1, ![8]⟩
abbrev S2x8x512 : Shape := ⟨3, ![2, 8, 512]⟩
abbrev S2048x512 : Shape := ⟨2, ![2048, 512]⟩
abbrev S2048x1 : Shape := ⟨2, ![2048, 1]⟩
abbrev S1x8x512 : Shape := ⟨3, ![1, 8, 512]⟩
abbrev S2048x8 : Shape := ⟨2, ![2048, 8]⟩
abbrev S8x512 : Shape := ⟨2, ![8, 512]⟩
abbrev S8x1 : Shape := ⟨2, ![8, 1]⟩
abbrev S8x1024 : Shape := ⟨2, ![8, 1024]⟩
abbrev S2048x1024 : Shape := ⟨2, ![2048, 1024]⟩

abbrev nBuf : Space → Nat
  | .hbm => 51
  | .vmem => 20
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1x512, .f32⟩
  | .hbm, ⟨3, _⟩ => ⟨S1x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072x1, .i32⟩
  | .hbm, ⟨13, _⟩ => ⟨S_, .f32⟩
  | .hbm, ⟨14, _⟩ => ⟨S131072, .f32⟩
  | .hbm, ⟨15, _⟩ => ⟨S_, .f32⟩
  | .hbm, ⟨16, _⟩ => ⟨S8, .f32⟩
  | .hbm, ⟨17, _⟩ => ⟨S131072x1, .i32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2x8x512, .f32⟩
  | .hbm, ⟨23, _⟩ => ⟨S_, .f32⟩
  | .hbm, ⟨24, _⟩ => ⟨S8x512, .f32⟩
  | .hbm, ⟨25, _⟩ => ⟨S8x1, .f32⟩
  | .hbm, ⟨26, _⟩ => ⟨S8x512, .f32⟩
  | .hbm, ⟨27, _⟩ => ⟨S8x512, .f32⟩
  | .hbm, ⟨28, _⟩ => ⟨S2x8x512, .f32⟩
  | .hbm, ⟨29, _⟩ => ⟨S_, .f32⟩
  | .hbm, ⟨30, _⟩ => ⟨S8x512, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8x1, .f32⟩
  | .hbm, ⟨38, _⟩ => ⟨S8x512, .f32⟩
  | .hbm, ⟨39, _⟩ => ⟨S8x512, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S8x512, .f32⟩
  | .hbm, ⟨44, _⟩ => ⟨S8x512, .f32⟩
  | .hbm, ⟨45, _⟩ => ⟨S8x512, .f32⟩
  | .hbm, ⟨46, _⟩ => ⟨S8x512, .f32⟩
  | .hbm, ⟨47, _⟩ => ⟨S8x512, .f32⟩
  | .hbm, ⟨48, _⟩ => ⟨S8x512, .f32⟩
  | .hbm, ⟨49, _⟩ => ⟨S8x1024, .f32⟩
  | .hbm, ⟨50, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x8x512, .f32⟩
  | .local _ .vmem, ⟨5, _⟩ => ⟨S1x8x512, .f32⟩
  | .local _ .vmem, ⟨6, _⟩ => ⟨S2048x512, .f32⟩
  | .local _ .vmem, ⟨7, _⟩ => ⟨S2048x512, .f32⟩
  | .local _ .vmem, ⟨8, _⟩ => ⟨S2048x1, .i32⟩
  | .local _ .vmem, ⟨9, _⟩ => ⟨S2048x1, .i32⟩
  | .local _ .vmem, ⟨10, _⟩ => ⟨S8x512, .f32⟩
  | .local _ .vmem, ⟨11, _⟩ => ⟨S1x8x512, .f32⟩
  | .local _ .vmem, ⟨12, _⟩ => ⟨S1x8x512, .f32⟩
  | .local _ .vmem, ⟨13, _⟩ => ⟨S2048x512, .f32⟩
  | .local _ .vmem, ⟨14, _⟩ => ⟨S2048x512, .f32⟩
  | .local _ .vmem, ⟨15, _⟩ => ⟨S2048x1, .i32⟩
  | .local _ .vmem, ⟨16, _⟩ => ⟨S2048x1, .i32⟩
  | .local _ .vmem, ⟨17, _⟩ => ⟨S8x1024, .f32⟩
  | .local _ .vmem, ⟨18, _⟩ => ⟨S2048x512, .f32⟩
  | .local _ .vmem, ⟨19, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S131072 : S_.BroadcastsInDim S131072 (![] : Fin 0 → Fin S131072.rank)
  shapeCasts_S131072_S131072x1 : S131072.ShapeCasts S131072x1
  bcast_S_S8 : S_.BroadcastsInDim S8 (![] : Fin 0 → Fin S8.rank)
  bcast_S131072_S131072x1_0 : S131072.BroadcastsInDim S131072x1 (![0] : Fin 1 → Fin S131072x1.rank)
  inb_S1x8x512_S1x8x512_0_0_0 : ∀ a, (![0, 0, 0] : Fin 3 → Nat) a + S1x8x512.size a ≤ S1x8x512.size a
  h_S1x8x512 : 0 < S1x8x512.numel
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x8_d1_w32 : S2048x8.Iotas .tc 32 [1]
  broadcasts_S2048x1_S2048x8 : S2048x1.Broadcasts S2048x8
  natLt_1_32 : 1 < 32
  shapeCasts_S1x8x512_S8x512 : S1x8x512.ShapeCasts S8x512
  shapeCasts_S8x512_S1x8x512 : S8x512.ShapeCasts S1x8x512
  reducesTo_S2x8x512_S8x512_d0 : S2x8x512.ReducesTo [0] S8x512
  h_S_ : 0 < S_.numel
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  bcast_S_S8x512 : S_.BroadcastsInDim S8x512 (![] : Fin 0 → Fin S8x512.rank)
  bcast_S1x512_S8x512_0_1 : S1x512.BroadcastsInDim S8x512 (![0, 1] : Fin 2 → Fin S8x512.rank)
  concatenates_S8x512_S8x512_S8x1024_d1 : Shape.Concatenates [S8x512, S8x512] S8x1024 1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S2048x1024_o0_0_S2048x512 : S2048x1024.Slices ![0, 0] S2048x512
  slices_S2048x1024_o0_512_S2048x512 : S2048x1024.Slices ![0, 512] S2048x512
  scatter_S8_S131072x1_S131072_n_0_0_1_wf : ScatterDims.WF S8 S131072x1 S131072 [] [0] [0] 1
  dot_S2048x8_S2048x512_S8x512_0_0_1_1_n_n_wf : DotDims.WF S2048x8 S2048x512 S8x512 [0] [0] [1] [1] [] []
  dot_S2048x8_S8x512_S2048x512_1_0_0_1_n_n_wf : DotDims.WF S2048x8 S8x512 S2048x512 [1] [0] [0] [1] [] []
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S131072x1.size a
  hwx1_1 : ∀ i : grid1.Coords, EltTy.bits .i32 = 32 ∨ (Rect.block (s := S131072x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x512.size a
  hwx1_2 : ∀ i : grid1.Coords, EltTy.bits .f32 = 32 ∨ (Rect.block (s := S8x512) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x512.size a ≤ S2x8x512.size a
  hwx1_3 : ∀ i : grid1.Coords, EltTy.bits .f32 = 32 ∨ (Rect.block (s := S2x8x512) S1x8x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S131072x512.size a
  hwx2_0 : ∀ i : grid2.Coords, EltTy.bits .f32 = 32 ∨ (Rect.block (s := S131072x512) S2048x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S131072x1.size a
  hwx2_1 : ∀ i : grid2.Coords, EltTy.bits .i32 = 32 ∨ (Rect.block (s := S131072x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x1024.size a ≤ S8x1024.size a
  hwx2_2 : ∀ i : grid2.Coords, EltTy.bits .f32 = 32 ∨ (Rect.block (s := S8x1024) S8x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S131072x512.size a
  hwx2_3 : ∀ i : grid2.Coords, EltTy.bits .f32 = 32 ∨ (Rect.block (s := S131072x512) S2048x512.size (cc2_transform_3 i) (hinb2_3 i)).WholeWords (EltTy.packing .f32)

variable [Facts₀]

def scatter_S8_S131072x1_S131072_n_0_0_1 : ScatterDims S8 S131072x1 S131072 where
  updateWindowDims := []
  insertedWindowDims := [0]
  scatterDimsToOperandDims := [0]
  indexVectorDim := 1
  wf := scatter_S8_S131072x1_S131072_n_0_0_1_wf
def dot_S2048x8_S2048x512_S8x512_0_0_1_1_n_n : DotDims S2048x8 S2048x512 S8x512 where
  lhsContracting := [0]
  rhsContracting := [0]
  lhsNonContracting := [1]
  rhsNonContracting := [1]
  lhsBatch := []
  rhsBatch := []
  wf := dot_S2048x8_S2048x512_S8x512_0_0_1_1_n_n_wf
def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x8x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S8x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S131072x512 : Shape := ⟨2, ![131072, 512]⟩
abbrev S131072 : Shape := ⟨1, ![131072]⟩
abbrev S1x512 : Shape := ⟨2, ![1, 512]⟩
abbrev S131072x1 : Shape := ⟨2, ![131072, 1]⟩
abbrev S_ : Shape := ⟨0, ![]⟩
abbrev S8 : Shape := ⟨1, ![8]⟩
abbrev S8x512 : Shape := ⟨2, ![8, 512]⟩
abbrev S8x1 : Shape := ⟨2, ![8, 1]⟩

abbrev nBuf : Space → Nat
  | .hbm => 61
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1x512, .f32⟩
  | .hbm, ⟨3, _⟩ => ⟨S1x512, .f32⟩
  | .hbm, ⟨4, _⟩ => ⟨S131072x1, .f32⟩
  | .hbm, ⟨5, _⟩ => ⟨S131072, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S8, .f32⟩
  | .hbm, ⟨10, _⟩ => ⟨S131072x1, .i32⟩
  | .hbm, ⟨11, _⟩ => ⟨S8, .f32⟩
  | .hbm, ⟨12, _⟩ => ⟨S_, .f32⟩
  | .hbm, ⟨13, _⟩ => ⟨S8x512, .f32⟩
  | .hbm, ⟨14, _⟩ => ⟨S131072x1, .i32⟩
  | .hbm, ⟨15, _⟩ => ⟨S8x512, .f32⟩
  | .hbm, ⟨16, _⟩ => ⟨S8x1, .f32⟩
  | .hbm, ⟨17, _⟩ => ⟨S8x512, .f32⟩
  | .hbm, ⟨18, _⟩ => ⟨S8x512, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S_, .f32⟩
  | .hbm, ⟨31, _⟩ => ⟨S8x512, .f32⟩
  | .hbm, ⟨32, _⟩ => ⟨S131072x1, .i32⟩
  | .hbm, ⟨33, _⟩ => ⟨S8x512, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8x1, .f32⟩
  | .hbm, ⟨41, _⟩ => ⟨S8x512, .f32⟩
  | .hbm, ⟨42, _⟩ => ⟨S8x512, .f32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S131072x1, .i32⟩
  | .hbm, ⟨51, _⟩ => ⟨S131072x512, .f32⟩
  | .hbm, ⟨52, _⟩ => ⟨S_, .f32⟩
  | .hbm, ⟨53, _⟩ => ⟨S131072x512, .f32⟩
  | .hbm, ⟨54, _⟩ => ⟨S131072x512, .f32⟩
  | .hbm, ⟨55, _⟩ => ⟨S131072x512, .f32⟩
  | .hbm, ⟨56, _⟩ => ⟨S131072x512, .f32⟩
  | .hbm, ⟨57, _⟩ => ⟨S131072x512, .f32⟩
  | .hbm, ⟨58, _⟩ => ⟨S131072x512, .f32⟩
  | .hbm, ⟨59, _⟩ => ⟨S131072x512, .f32⟩
  | .hbm, ⟨60, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  slices_S131072x512_S131072x1_0_0 : S131072x512.Slices ![0, 0] S131072x1
  shapeCasts_S131072x1_S131072 : S131072x1.ShapeCasts S131072
  bcast_S_S131072 : S_.BroadcastsInDim S131072 (![] : Fin 0 → Fin S131072.rank)
  bcast_S_S8 : S_.BroadcastsInDim S8 (![] : Fin 0 → Fin S8.rank)
  bcast_S131072_S131072x1_0 : S131072.BroadcastsInDim S131072x1 (![0] : Fin 1 → Fin S131072x1.rank)
  bcast_S_S8x512 : S_.BroadcastsInDim S8x512 (![] : Fin 0 → Fin S8x512.rank)
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S131072x512 : S_.BroadcastsInDim S131072x512 (![] : Fin 0 → Fin S131072x512.rank)
  bcast_S1x512_S131072x512_0_1 : S1x512.BroadcastsInDim S131072x512 (![0, 1] : Fin 2 → Fin S131072x512.rank)
  scatter_S8_S131072x1_S131072_n_0_0_1_wf : ScatterDims.WF S8 S131072x1 S131072 [] [0] [0] 1
  scatter_S8x512_S131072x1_S131072x512_1_0_0_1_wf : ScatterDims.WF S8x512 S131072x1 S131072x512 [1] [0] [0] 1
  gather_S8x512_S131072x1_S131072x512_1_0_n_n_0_1_1512_wf : GatherDims.WF S8x512 S131072x1 S131072x512 [1] [0] [] [0] [] 1 ![1, 512]

variable [Facts₀]

def scatter_S8_S131072x1_S131072_n_0_0_1 : ScatterDims S8 S131072x1 S131072 where
  updateWindowDims := []
  insertedWindowDims := [0]
  scatterDimsToOperandDims := [0]
  indexVectorDim := 1
  wf := scatter_S8_S131072x1_S131072_n_0_0_1_wf
def scatter_S8x512_S131072x1_S131072x512_1_0_0_1 : ScatterDims S8x512 S131072x1 S131072x512 where
  updateWindowDims := [1]
  insertedWindowDims := [0]
  scatterDimsToOperandDims := [0]
  indexVectorDim := 1
  wf := scatter_S8x512_S131072x1_S131072x512_1_0_0_1_wf
def gather_S8x512_S131072x1_S131072x512_1_0_n_n_0_1_1512 : GatherDims S8x512 S131072x1 S131072x512 where
  offsetDims := [1]
  collapsedSliceDims := [0]
  operandBatchingDims := []
  startIndicesBatchingDims := []
  startIndexMap := [0]
  indexVectorDim := 1
  sliceSizes := ![1, 512]
  wf := gather_S8x512_S131072x1_S131072x512_1_0_n_n_0_1_1512_wf

class Facts : Prop extends Facts₀ where

variable [Facts]
-- ==== Proof.Spec.lean ====
/-
  Per-domain batch normalisation of 131072 samples with 512 channels over 8 domains, as mathematics on the extended
  reals, with no program in sight.

  Sample `i` belongs to domain `d i`. Per domain `k` and channel `c`: the count `n k` of its samples, the mean
  `μ k c = (∑_{d i = k} x i c) / n k`, the unbiased variance `σ² k c = (∑_{d i = k} (x i c − μ (d i) c)²) / max (n k − 1) 1`,
  and the result `(x i c − μ (d i) c) · (σ² (d i) c + ε)^(−1/2) · std c + mean c`.

  Two arrangements of this are written out. The first sums each domain's samples directly and reads a domain's
  statistics back by the sample's own domain (`refOut`). The second forms the same sums in two halves of 32 blocks of
  2048 rows, selecting a domain's rows by multiplying with a 0/1 indicator, guards the mean's divisor by `max (n k) 1`,
  reads a table row back as `∑ₖ [d i = k] · T k`, and applies the normalisation as `x · A + B` with `A = (σ² + ε)^(−1/2) · std`
  and `B = mean − μ · A` (`kerOut`). `Algebra.lean` shows the two agree where every sample is finite and every domain id is
  one of the eight.
-/
import Idealize.ShloMosaic.PureOps.Ideal
import Idealize.ShloMosaic.Lib.ValueIdx
import Mathlib.Algebra.BigOperators.Group.Finset.Basic
import Mathlib.Data.Fintype.BigOperators

noncomputable section

namespace Cert.DomainNorm

open Idealize.ShloMosaic Idealize.ShloMosaic.ValueIdx

/-- The samples `x[i, c]`. -/
abbrev XArr := (⟨2, ![131072, 512]⟩ : Shape).Idx → EReal
/-- The domain ids, one per sample, as 32-bit words. -/
abbrev DVec := (⟨1, ![131072]⟩ : Shape).Idx → BitVec 32
/-- The domain ids laid out as a column. -/
abbrev DCol := (⟨2, ![131072, 1]⟩ : Shape).Idx → BitVec 32
/-- A per-channel parameter row (the affine `mean` and `std`). -/
abbrev Par := (⟨2, ![1, 512]⟩ : Shape).Idx → EReal
/-- A per-domain, per-channel table. -/
abbrev Tab := (⟨2, ![8, 512]⟩ : Shape).Idx → EReal
/-- Two such tables side by side. -/
abbrev Tab2 := (⟨2, ![8, 1024]⟩ : Shape).Idx → EReal

/-- A rank-2 array from a function of its two coordinates. -/
def tab {n m : Nat} (f : Fin n → Fin m → EReal) : (⟨2, ![n, m]⟩ : Shape).Idx → EReal :=
  fun j => f ⟨(j 0).val, idx2_lt0 j⟩ ⟨(j 1).val, idx2_lt1 j⟩

@[simp] theorem tab_ix2 {n m : Nat} (f : Fin n → Fin m → EReal) (a : Fin n) (b : Fin m) : tab f (ix2 a b) = f a b := rfl

/-- The ids as a column: entry `(i, 0)` is sample `i`'s id. -/
def dcol (d : DVec) : DCol := fun j => d (ix1 ⟨(j 0).val, idx2_lt0 j⟩)

@[simp] theorem dcol_ix2 (d : DVec) (i : Fin 131072) (z : Fin 1) : dcol d (ix2 i z) = d (ix1 i) := rfl

/-- The indicator of "the id `w` names domain `k`". -/
def oh (w : BitVec 32) (k : Fin 8) : EReal := if w.toNat = k.val then 1 else 0

/-- Row `r` of block `s` of half `p`: the halves hold 32 blocks of 2048 rows each. -/
def rowOf (p : Fin 2) (s : Fin 32) (r : Fin 2048) : Fin 131072 :=
  ⟨p.val * 65536 + s.val * 2048 + r.val, by have := p.isLt; have := s.isLt; have := r.isLt; omega⟩

/-- Row `r` of block `t` of the 64 blocks of 2048 rows. -/
def blkRow (t : Fin 64) (r : Fin 2048) : Fin 131072 :=
  ⟨t.val * 2048 + r.val, by have := t.isLt; have := r.isLt; omega⟩

/-- A table's row for sample `i`, read back through the indicator: `∑ₖ [d i = k] · T k`. -/
def pick (dd : DCol) (T : Fin 8 → EReal) (i : Fin 131072) : EReal := ∑ k : Fin 8, oh (dd (ix2 i 0)) k * T k

/-- Half `p`'s share of domain `k`'s channel-`c` sum: over its 32 blocks, over the block's 2048 rows. -/
def partSum (X : XArr) (dd : DCol) (p : Fin 2) (k : Fin 8) (c : Fin 512) : EReal :=
  ∑ s : Fin 32, ∑ r : Fin 2048, oh (dd (ix2 (rowOf p s r) 0)) k * X (ix2 (rowOf p s r) c)

/-- Half `p`'s share of domain `k`'s channel-`c` sum of squared deviations from the table `M`'s row read back per sample. -/
def partSq (X : XArr) (dd : DCol) (M : Tab) (p : Fin 2) (k : Fin 8) (c : Fin 512) : EReal :=
  ∑ s : Fin 32, ∑ r : Fin 2048, oh (dd (ix2 (rowOf p s r) 0)) k *
    ((X (ix2 (rowOf p s r) c) - pick dd (fun k' => M (ix2 k' c)) (rowOf p s r))
      * (X (ix2 (rowOf p s r) c) - pick dd (fun k' => M (ix2 k' c)) (rowOf p s r)))

/-- `x · A + B` with `A`, `B` the two halves of a double table, each read back per sample. -/
def normed (X : XArr) (dd : DCol) (AB : Tab2) (i : Fin 131072) (c : Fin 512) : EReal :=
  X (ix2 i c) * pick dd (fun k => AB (ix2 k ⟨c.val, by have := c.isLt; omega⟩)) i
    + pick dd (fun k => AB (ix2 k ⟨512 + c.val, by have := c.isLt; omega⟩)) i

/-- The number of samples of domain `k`. -/
def cnt (d : DVec) (k : Fin 8) : EReal := ∑ i : Fin 131072, oh (d (ix1 i)) k

/-- The variance's guard `ε`: the binary32 value nearest 1e-5. -/
def eps : EReal := Ideal.ofBits .f32 0x3727C5AC#32

/-! ## The blocked arrangement -/

/-- The mean, its divisor guarded against an empty domain. -/
def kMean (X : XArr) (d : DVec) (k : Fin 8) (c : Fin 512) : EReal :=
  Ideal.div (partSum X (dcol d) 0 k c + partSum X (dcol d) 1 k c) (max (cnt d k) 1)

/-- The unbiased variance about that mean. -/
def kVar (X : XArr) (d : DVec) (k : Fin 8) (c : Fin 512) : EReal :=
  Ideal.div (partSq X (dcol d) (tab (kMean X d)) 0 k c + partSq X (dcol d) (tab (kMean X d)) 1 k c) (max (cnt d k - 1) 1)

/-- The scale `A = (σ² + ε)^(−1/2) · std`. -/
def kA (X : XArr) (d : DVec) (std : Par) (k : Fin 8) (c : Fin 512) : EReal :=
  Ideal.rsqrt (kVar X d k c + eps) * std (ix2 0 c)

/-- The shift `B = mean − μ · A`. -/
def kB (X : XArr) (d : DVec) (mean std : Par) (k : Fin 8) (c : Fin 512) : EReal :=
  mean (ix2 0 c) - kMean X d k c * kA X d std k c

/-- `A` and `B` side by side: columns 0–511 hold `A`, columns 512–1023 hold `B`. -/
def kAB (X : XArr) (d : DVec) (mean std : Par) : Tab2 :=
  tab fun k (c2 : Fin 1024) =>
    if h : c2.val < 512 then kA X d std k ⟨c2.val, h⟩
    else kB X d mean std k ⟨c2.val - 512, by have := c2.isLt; omega⟩

/-- The blocked arrangement's result. -/
def kerOut (X : XArr) (d : DVec) (mean std : Par) (i : Fin 131072) (c : Fin 512) : EReal :=
  normed X (dcol d) (kAB X d mean std) i c

/-! ## The direct arrangement -/

/-- Sample `i`'s domain (any id is sent to one of the eight; an id that names a domain is sent to it). -/
def dom (d : DVec) (i : Fin 131072) : Fin 8 := ⟨(d (ix1 i)).toNat % 8, Nat.mod_lt _ (by decide)⟩

/-- The mean. -/
def rMean (X : XArr) (d : DVec) (k : Fin 8) (c : Fin 512) : EReal :=
  Ideal.div (∑ i : Fin 131072, oh (d (ix1 i)) k * X (ix2 i c)) (cnt d k)

/-- A sample's deviation from its own domain's mean. -/
def rDiff (X : XArr) (d : DVec) (i : Fin 131072) (c : Fin 512) : EReal := X (ix2 i c) - rMean X d (dom d i) c

/-- The unbiased variance. -/
def rVar (X : XArr) (d : DVec) (k : Fin 8) (c : Fin 512) : EReal :=
  Ideal.div (∑ i : Fin 131072, oh (d (ix1 i)) k * (rDiff X d i c * rDiff X d i c)) (max (cnt d k - 1) 1)

/-- The direct arrangement's result. -/
def refOut (X : XArr) (d : DVec) (mean std : Par) (i : Fin 131072) (c : Fin 512) : EReal :=
  rDiff X d i c * Ideal.rsqrt (rVar X d (dom d i) c + eps) * std (ix2 0 c) + mean (ix2 0 c)

end Cert.DomainNorm

end
-- ==== Proof.KOneHot.lean ====
/-
  The 0/1 indicator matrix the three launch bodies build from a block's 2048 domain ids, and the two ways they use it:
  contracted over the block's rows against a block of samples it sums each domain's rows; contracted over the eight
  domains against a table it reads back, for each row, the table's row of that row's domain.
-/
import proofs.«411909_j73443940761618_3_alg».proof.KernelIdeal
import proofs.«411909_j73443940761618_3_alg».proof.Proof.Gen.KernelIdeal
import proofs.«411909_j73443940761618_3_alg».proof.Proof.Gen.KernelIdeal.Skeleton
import proofs.«411909_j73443940761618_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.DomainNorm
open Idealize.ShloMosaic Idealize.ShloMosaic.ValueIdx Idealize.SL.Sem

/-- The indicator matrix of a block's id column: entry `(r, k)` is 1 when row `r`'s id is `k`, else 0 — the id column
    broadcast along eight lanes, compared with the lane number, the comparison's bit widened and converted. -/
def onehot (ids : Vec Ideal S2048x1 .i32) : FVec Ideal S2048x8 .f32 :=
  sitofp .f32 (extui 32 (cmpi .eq (iota .tc S2048x8 32 [1] iota_S2048x8_d1_w32)
    (broadcastTo S2048x8 (shapeCast S2048x1 ids shapeCasts_S2048x1_S2048x1) broadcasts_S2048x1_S2048x8)) natLt_1_32)

/-- A comparison bit, widened to 32 bits and converted, is the extended real 1 when the bit is set and 0 when it is
    clear: the widened word is 1 or 0, it reads the same signed, and the conversion is the cast of that integer. -/
private theorem sitofp_bit (b : BitVec 1) :
    (FloatOps.sitofp (F := Ideal) .f32 (b.setWidth 32)) = (if b = 1#1 then (1 : EReal) else 0) := by
  rcases BitVec.eq_zero_or_eq_one b with rfl | rfl
  · rw [if_neg (by decide)]
    show (((BitVec.setWidth 32 0#1).toInt : ℝ) : EReal) = 0
    rw [show (BitVec.setWidth 32 0#1).toInt = 0 from by decide, Int.cast_zero, EReal.coe_zero]
  · rw [if_pos rfl]
    show (((BitVec.setWidth 32 1#1).toInt : ℝ) : EReal) = 1
    rw [show (BitVec.setWidth 32 1#1).toInt = 1 from by decide, Int.cast_one, EReal.coe_one]

/-- The 32-bit word of a lane number below eight equals a word exactly when that word's value is the lane number. -/
private theorem lane_eq_iff (w : BitVec 32) (k : Fin 8) : BitVec.ofNat 32 k.val = w ↔ w.toNat = k.val := by
  have hk : k.val % 2 ^ 32 = k.val := Nat.mod_eq_of_lt (by have := k.isLt; omega)
  constructor
  · intro h; rw [← h, BitVec.toNat_ofNat, hk]
  · intro h; apply BitVec.eq_of_toNat_eq; rw [BitVec.toNat_ofNat, hk, h]

/-- The equality comparison's bit is set exactly when the two words are equal. -/
private theorem cmpi_eq_one_iff (a b : BitVec 32) : IntOp.cmpi .eq a b = 1#1 ↔ a = b := by
  show BitVec.ofBool (a == b) = 1#1 ↔ a = b
  by_cases h : a = b
  · subst h; simp
  · have hb : (a == b) = false := by simpa using h
    rw [hb]; exact ⟨fun hc => absurd hc (by decide), fun hc => absurd hc h⟩

/-- The id column broadcast along the eight lanes reads, at `(r, k)`, the column's entry `(r, 0)`. -/
private theorem bcast_ids_apply (ids : Vec Ideal S2048x1 .i32) (r : Fin 2048) (k : Fin 8) :
    broadcastTo S2048x8 ids broadcasts_S2048x1_S2048x8 (ix2 r k) = ids (ix2 r 0) :=
  broadcastTo_apply ids broadcasts_S2048x1_S2048x8 (ix2 r k) (ix2 r 0) (fun a => by
    match a with
    | ⟨0, _⟩ => rfl
    | ⟨1, _⟩ => rfl)

/-- Entry `(r, k)` of the indicator matrix is the indicator of "row `r`'s id names domain `k`". -/
theorem onehot_apply (ids : Vec Ideal S2048x1 .i32) (r : Fin 2048) (k : Fin 8) :
    onehot ids (ix2 r k) = oh (ids (ix2 r 0)) k := by
  unfold onehot oh
  rw [sitofp_apply, extui_apply, sitofp_bit]
  show (if IntOp.cmpi .eq (iota .tc S2048x8 32 [1] iota_S2048x8_d1_w32 (ix2 r k))
      (broadcastTo S2048x8 (shapeCast S2048x1 ids shapeCasts_S2048x1_S2048x1) broadcasts_S2048x1_S2048x8 (ix2 r k)) = 1#1
    then (1 : EReal) else 0) = _
  rw [iota_single_apply, shapeCast_self, bcast_ids_apply]
  show (if IntOp.cmpi .eq (BitVec.ofNat 32 k.val) (ids (ix2 r 0)) = 1#1 then (1 : EReal) else 0) = _
  by_cases h : (ids (ix2 r 0)).toNat = k.val
  · rw [if_pos h, if_pos ((cmpi_eq_one_iff _ _).mpr ((lane_eq_iff _ k).mpr h))]
  · rw [if_neg h, if_neg (fun hc => h ((lane_eq_iff _ k).mp ((cmpi_eq_one_iff _ _).mp hc)))]

/-! ## The row contraction: result `(k, c)` sums over the block's rows `r` the products `lhs (r, k) · rhs (r, c)` -/

/-- On the left operand's row axis the operand index is the contraction position. -/
private theorem lhsRows_0 (j : S8x512.Idx) (q : dot_S2048x8_S2048x512_S8x512_0_0_1_1_n_n.contr.Idx) :
    (dot_S2048x8_S2048x512_S8x512_0_0_1_1_n_n.lhsIdx j q 0 : ℕ) = q ⟨0, by decide⟩ :=
  dot_S2048x8_S2048x512_S8x512_0_0_1_1_n_n.lhsIdx_val_of_single rfl j q

/-- On the left operand's lane axis the operand index is the result's first coordinate. -/
private theorem lhsRows_1 (j : S8x512.Idx) (q : dot_S2048x8_S2048x512_S8x512_0_0_1_1_n_n.contr.Idx) :
    (dot_S2048x8_S2048x512_S8x512_0_0_1_1_n_n.lhsIdx j q 1 : ℕ) = j 0 := by
  unfold DotDims.lhsIdx
  rw [dif_neg (show ¬ (1 : Fin S2048x8.rank) ∈ dot_S2048x8_S2048x512_S8x512_0_0_1_1_n_n.lhsBatch from by decide),
    dif_pos (show (1 : Fin S2048x8.rank) ∈ dot_S2048x8_S2048x512_S8x512_0_0_1_1_n_n.lhsNonContracting from by decide)]
  rfl

/-- On the right operand's row axis the operand index is the contraction position. -/
private theorem rhsRows_0 (j : S8x512.Idx) (q : dot_S2048x8_S2048x512_S8x512_0_0_1_1_n_n.contr.Idx) :
    (dot_S2048x8_S2048x512_S8x512_0_0_1_1_n_n.rhsIdx j q 0 : ℕ) = q ⟨0, by decide⟩ :=
  dot_S2048x8_S2048x512_S8x512_0_0_1_1_n_n.rhsIdx_val_of_single rfl j q

/-- On the right operand's channel axis the operand index is the result's second coordinate. -/
private theorem rhsRows_1 (j : S8x512.Idx) (q : dot_S2048x8_S2048x512_S8x512_0_0_1_1_n_n.contr.Idx) :
    (dot_S2048x8_S2048x512_S8x512_0_0_1_1_n_n.rhsIdx j q 1 : ℕ) = j 1 := by
  unfold DotDims.rhsIdx
  rw [dif_neg (show ¬ (1 : Fin S2048x512.rank) ∈ dot_S2048x8_S2048x512_S8x512_0_0_1_1_n_n.rhsBatch from by decide),
    dif_pos (show (1 : Fin S2048x512.rank) ∈ dot_S2048x8_S2048x512_S8x512_0_0_1_1_n_n.rhsNonContracting from by decide)]
  rfl

/-- At result `(k, c)` and row `r` the left operand is read at `(r, k)`. -/
private theorem lhsRows_eq (k : Fin 8) (c : Fin 512) (r : Fin 2048) :
    dot_S2048x8_S2048x512_S8x512_0_0_1_1_n_n.lhsIdx (ix2 k c)
        ((contrEquiv1 dot_S2048x8_S2048x512_S8x512_0_0_1_1_n_n 2048 rfl rfl).symm r) = ix2 r k := by
  funext a
  match a with
  | ⟨0, _⟩ => exact Fin.ext ((lhsRows_0 _ _).trans (contrEquiv1_symm_val dot_S2048x8_S2048x512_S8x512_0_0_1_1_n_n 2048 rfl rfl r))
  | ⟨1, _⟩ => exact Fin.ext (lhsRows_1 _ _)

/-- At result `(k, c)` and row `r` the right operand is read at `(r, c)`. -/
private theorem rhsRows_eq (k : Fin 8) (c : Fin 512) (r : Fin 2048) :
    dot_S2048x8_S2048x512_S8x512_0_0_1_1_n_n.rhsIdx (ix2 k c)
        ((contrEquiv1 dot_S2048x8_S2048x512_S8x512_0_0_1_1_n_n 2048 rfl rfl).symm r) = ix2 r c := by
  funext a
  match a with
  | ⟨0, _⟩ => exact Fin.ext ((rhsRows_0 _ _).trans (contrEquiv1_symm_val dot_S2048x8_S2048x512_S8x512_0_0_1_1_n_n 2048 rfl rfl r))
  | ⟨1, _⟩ => exact Fin.ext (rhsRows_1 _ _)

/-- Contracted over the rows against a block of samples, from a zero accumulator: domain `k`'s channel-`c` sum over the block. -/
theorem sumRows_apply (ids : Vec Ideal S2048x1 .i32) (x : FVec Ideal S2048x512 .f32) (k : Fin 8) (c : Fin 512) :
    matmul (F := Ideal) dot_S2048x8_S2048x512_S8x512_0_0_1_1_n_n (some .fp32) (onehot ids) x
        (constant S8x512 .f32 0x00000000#32) (ix2 k c)
      = ∑ r : Fin 2048, oh (ids (ix2 r 0)) k * x (ix2 r c) := by
  refine (Ideal.matmul_constant_zero_apply dot_S2048x8_S2048x512_S8x512_0_0_1_1_n_n (some .fp32) (onehot ids) x (ix2 k c)).trans ?_
  refine (Equiv.sum_comp (contrEquiv1 dot_S2048x8_S2048x512_S8x512_0_0_1_1_n_n 2048 rfl rfl).symm _).symm.trans ?_
  refine Finset.sum_congr rfl fun r _ => ?_
  show onehot ids (dot_S2048x8_S2048x512_S8x512_0_0_1_1_n_n.lhsIdx (ix2 k c)
        ((contrEquiv1 dot_S2048x8_S2048x512_S8x512_0_0_1_1_n_n 2048 rfl rfl).symm r))
      * x (dot_S2048x8_S2048x512_S8x512_0_0_1_1_n_n.rhsIdx (ix2 k c)
        ((contrEquiv1 dot_S2048x8_S2048x512_S8x512_0_0_1_1_n_n 2048 rfl rfl).symm r)) = _
  rw [lhsRows_eq, rhsRows_eq, onehot_apply]

/-! ## The domain contraction against a 512-column table: result `(r, c)` sums over the eight domains `k` the products `lhs (r, k) · rhs (k, c)` -/

/-- On the left operand's row axis the operand index is the result's first coordinate. -/
private theorem lhsPick512_0 (j : S2048x512.Idx) (q : dot_S2048x8_S8x512_S2048x512_1_0_0_1_n_n.contr.Idx) :
    (dot_S2048x8_S8x512_S2048x512_1_0_0_1_n_n.lhsIdx j q 0 : ℕ) = j 0 := by
  unfold DotDims.lhsIdx
  rw [dif_neg (show ¬ (0 : Fin S2048x8.rank) ∈ dot_S2048x8_S8x512_S2048x512_1_0_0_1_n_n.lhsBatch from by decide),
    dif_pos (show (0 : Fin S2048x8.rank) ∈ dot_S2048x8_S8x512_S2048x512_1_0_0_1_n_n.lhsNonContracting from by decide)]
  rfl

/-- On the left operand's lane axis the operand index is the contraction position. -/
private theorem lhsPick512_1 (j : S2048x512.Idx) (q : dot_S2048x8_S8x512_S2048x512_1_0_0_1_n_n.contr.Idx) :
    (dot_S2048x8_S8x512_S2048x512_1_0_0_1_n_n.lhsIdx j q 1 : ℕ) = q ⟨0, by decide⟩ :=
  dot_S2048x8_S8x512_S2048x512_1_0_0_1_n_n.lhsIdx_val_of_single rfl j q

/-- On the table's domain axis the operand index is the contraction position. -/
private theorem rhsPick512_0 (j : S2048x512.Idx) (q : dot_S2048x8_S8x512_S2048x512_1_0_0_1_n_n.contr.Idx) :
    (dot_S2048x8_S8x512_S2048x512_1_0_0_1_n_n.rhsIdx j q 0 : ℕ) = q ⟨0, by decide⟩ :=
  dot_S2048x8_S8x512_S2048x512_1_0_0_1_n_n.rhsIdx_val_of_single rfl j q

/-- On the table's column axis the operand index is the result's second coordinate. -/
private theorem rhsPick512_1 (j : S2048x512.Idx) (q : dot_S2048x8_S8x512_S2048x512_1_0_0_1_n_n.contr.Idx) :
    (dot_S2048x8_S8x512_S2048x512_1_0_0_1_n_n.rhsIdx j q 1 : ℕ) = j 1 := by
  unfold DotDims.rhsIdx
  rw [dif_neg (show ¬ (1 : Fin S8x512.rank) ∈ dot_S2048x8_S8x512_S2048x512_1_0_0_1_n_n.rhsBatch from by decide),
    dif_pos (show (1 : Fin S8x512.rank) ∈ dot_S2048x8_S8x512_S2048x512_1_0_0_1_n_n.rhsNonContracting from by decide)]
  rfl

/-- At result `(r, c)` and domain `k` the left operand is read at `(r, k)`. -/
private theorem lhsPick512_eq (r : Fin 2048) (c : Fin 512) (k : Fin 8) :
    dot_S2048x8_S8x512_S2048x512_1_0_0_1_n_n.lhsIdx (ix2 r c)
        ((contrEquiv1 dot_S2048x8_S8x512_S2048x512_1_0_0_1_n_n 8 rfl rfl).symm k) = ix2 r k := by
  funext a
  match a with
  | ⟨0, _⟩ => exact Fin.ext (lhsPick512_0 _ _)
  | ⟨1, _⟩ => exact Fin.ext ((lhsPick512_1 _ _).trans (contrEquiv1_symm_val dot_S2048x8_S8x512_S2048x512_1_0_0_1_n_n 8 rfl rfl k))

/-- At result `(r, c)` and domain `k` the table is read at `(k, c)`. -/
private theorem rhsPick512_eq (r : Fin 2048) (c : Fin 512) (k : Fin 8) :
    dot_S2048x8_S8x512_S2048x512_1_0_0_1_n_n.rhsIdx (ix2 r c)
        ((contrEquiv1 dot_S2048x8_S8x512_S2048x512_1_0_0_1_n_n 8 rfl rfl).symm k) = ix2 k c := by
  funext a
  match a with
  | ⟨0, _⟩ => exact Fin.ext ((rhsPick512_0 _ _).trans (contrEquiv1_symm_val dot_S2048x8_S8x512_S2048x512_1_0_0_1_n_n 8 rfl rfl k))
  | ⟨1, _⟩ => exact Fin.ext (rhsPick512_1 _ _)

/-- Contracted over the domains against a 512-channel table, from a zero accumulator: row `r` reads the table's row of its domain. -/
theorem pickRows512_apply (ids : Vec Ideal S2048x1 .i32) (T : FVec Ideal S8x512 .f32) (r : Fin 2048) (c : Fin 512) :
    matmul (F := Ideal) dot_S2048x8_S8x512_S2048x512_1_0_0_1_n_n (some .fp32) (onehot ids) T
        (constant S2048x512 .f32 0x00000000#32) (ix2 r c)
      = ∑ k : Fin 8, oh (ids (ix2 r 0)) k * T (ix2 k c) := by
  refine (Ideal.matmul_constant_zero_apply dot_S2048x8_S8x512_S2048x512_1_0_0_1_n_n (some .fp32) (onehot ids) T (ix2 r c)).trans ?_
  refine (Equiv.sum_comp (contrEquiv1 dot_S2048x8_S8x512_S2048x512_1_0_0_1_n_n 8 rfl rfl).symm _).symm.trans ?_
  refine Finset.sum_congr rfl fun k _ => ?_
  show onehot ids (dot_S2048x8_S8x512_S2048x512_1_0_0_1_n_n.lhsIdx (ix2 r c)
        ((contrEquiv1 dot_S2048x8_S8x512_S2048x512_1_0_0_1_n_n 8 rfl rfl).symm k))
      * T (dot_S2048x8_S8x512_S2048x512_1_0_0_1_n_n.rhsIdx (ix2 r c)
        ((contrEquiv1 dot_S2048x8_S8x512_S2048x512_1_0_0_1_n_n 8 rfl rfl).symm k)) = _
  rw [lhsPick512_eq, rhsPick512_eq, onehot_apply]

/-! ## The domain contraction against a 1024-column table: result `(r, c)` sums over the eight domains `k` the products `lhs (r, k) · rhs (k, c)` -/

/-- On the left operand's row axis the operand index is the result's first coordinate. -/
private theorem lhsPick1024_0 (j : S2048x1024.Idx) (q : dot_S2048x8_S8x1024_S2048x1024_1_0_0_1_n_n.contr.Idx) :
    (dot_S2048x8_S8x1024_S2048x1024_1_0_0_1_n_n.lhsIdx j q 0 : ℕ) = j 0 := by
  unfold DotDims.lhsIdx
  rw [dif_neg (show ¬ (0 : Fin S2048x8.rank) ∈ dot_S2048x8_S8x1024_S2048x1024_1_0_0_1_n_n.lhsBatch from by decide),
    dif_pos (show (0 : Fin S2048x8.rank) ∈ dot_S2048x8_S8x1024_S2048x1024_1_0_0_1_n_n.lhsNonContracting from by decide)]
  rfl

/-- On the left operand's lane axis the operand index is the contraction position. -/
private theorem lhsPick1024_1 (j : S2048x1024.Idx) (q : dot_S2048x8_S8x1024_S2048x1024_1_0_0_1_n_n.contr.Idx) :
    (dot_S2048x8_S8x1024_S2048x1024_1_0_0_1_n_n.lhsIdx j q 1 : ℕ) = q ⟨0, by decide⟩ :=
  dot_S2048x8_S8x1024_S2048x1024_1_0_0_1_n_n.lhsIdx_val_of_single rfl j q

/-- On the table's domain axis the operand index is the contraction position. -/
private theorem rhsPick1024_0 (j : S2048x1024.Idx) (q : dot_S2048x8_S8x1024_S2048x1024_1_0_0_1_n_n.contr.Idx) :
    (dot_S2048x8_S8x1024_S2048x1024_1_0_0_1_n_n.rhsIdx j q 0 : ℕ) = q ⟨0, by decide⟩ :=
  dot_S2048x8_S8x1024_S2048x1024_1_0_0_1_n_n.rhsIdx_val_of_single rfl j q

/-- On the table's column axis the operand index is the result's second coordinate. -/
private theorem rhsPick1024_1 (j : S2048x1024.Idx) (q : dot_S2048x8_S8x1024_S2048x1024_1_0_0_1_n_n.contr.Idx) :
    (dot_S2048x8_S8x1024_S2048x1024_1_0_0_1_n_n.rhsIdx j q 1 : ℕ) = j 1 := by
  unfold DotDims.rhsIdx
  rw [dif_neg (show ¬ (1 : Fin S8x1024.rank) ∈ dot_S2048x8_S8x1024_S2048x1024_1_0_0_1_n_n.rhsBatch from by decide),
    dif_pos (show (1 : Fin S8x1024.rank) ∈ dot_S2048x8_S8x1024_S2048x1024_1_0_0_1_n_n.rhsNonContracting from by decide)]
  rfl

/-- At result `(r, c)` and domain `k` the left operand is read at `(r, k)`. -/
private theorem lhsPick1024_eq (r : Fin 2048) (c : Fin 1024) (k : Fin 8) :
    dot_S2048x8_S8x1024_S2048x1024_1_0_0_1_n_n.lhsIdx (ix2 r c)
        ((contrEquiv1 dot_S2048x8_S8x1024_S2048x1024_1_0_0_1_n_n 8 rfl rfl).symm k) = ix2 r k := by
  funext a
  match a with
  | ⟨0, _⟩ => exact Fin.ext (lhsPick1024_0 _ _)
  | ⟨1, _⟩ => exact Fin.ext ((lhsPick1024_1 _ _).trans (contrEquiv1_symm_val dot_S2048x8_S8x1024_S2048x1024_1_0_0_1_n_n 8 rfl rfl k))

/-- At result `(r, c)` and domain `k` the table is read at `(k, c)`. -/
private theorem rhsPick1024_eq (r : Fin 2048) (c : Fin 1024) (k : Fin 8) :
    dot_S2048x8_S8x1024_S2048x1024_1_0_0_1_n_n.rhsIdx (ix2 r c)
        ((contrEquiv1 dot_S2048x8_S8x1024_S2048x1024_1_0_0_1_n_n 8 rfl rfl).symm k) = ix2 k c := by
  funext a
  match a with
  | ⟨0, _⟩ => exact Fin.ext ((rhsPick1024_0 _ _).trans (contrEquiv1_symm_val dot_S2048x8_S8x1024_S2048x1024_1_0_0_1_n_n 8 rfl rfl k))
  | ⟨1, _⟩ => exact Fin.ext (rhsPick1024_1 _ _)

/-- The same against a 1024-column double table. -/
theorem pickRows1024_apply (ids : Vec Ideal S2048x1 .i32) (T : FVec Ideal S8x1024 .f32) (r : Fin 2048) (c : Fin 1024) :
    matmul (F := Ideal) dot_S2048x8_S8x1024_S2048x1024_1_0_0_1_n_n (some .fp32) (onehot ids) T
        (constant S2048x1024 .f32 0x00000000#32) (ix2 r c)
      = ∑ k : Fin 8, oh (ids (ix2 r 0)) k * T (ix2 k c) := by
  refine (Ideal.matmul_constant_zero_apply dot_S2048x8_S8x1024_S2048x1024_1_0_0_1_n_n (some .fp32) (onehot ids) T (ix2 r c)).trans ?_
  refine (Equiv.sum_comp (contrEquiv1 dot_S2048x8_S8x1024_S2048x1024_1_0_0_1_n_n 8 rfl rfl).symm _).symm.trans ?_
  refine Finset.sum_congr rfl fun k _ => ?_
  show onehot ids (dot_S2048x8_S8x1024_S2048x1024_1_0_0_1_n_n.lhsIdx (ix2 r c)
        ((contrEquiv1 dot_S2048x8_S8x1024_S2048x1024_1_0_0_1_n_n 8 rfl rfl).symm k))
      * T (dot_S2048x8_S8x1024_S2048x1024_1_0_0_1_n_n.rhsIdx (ix2 r c)
        ((contrEquiv1 dot_S2048x8_S8x1024_S2048x1024_1_0_0_1_n_n 8 rfl rfl).symm k)) = _
  rw [lhsPick1024_eq, rhsPick1024_eq, onehot_apply]

/-- The first body's second payload is "what the buffer held, plus the block's per-domain sums". -/
theorem k0_pay2_eq (x : FVec Ideal S2048x512 .f32) (ids : Vec Ideal S2048x1 .i32) (acc : Vec Ideal S1x8x512 .f32) :
    k0_pay2 (F := Ideal) x ids acc
      = shapeCast S1x8x512 (addf (shapeCast S8x512 acc shapeCasts_S1x8x512_S8x512)
          (matmul (F := Ideal) dot_S2048x8_S2048x512_S8x512_0_0_1_1_n_n (some .fp32) (onehot ids) x
            (constant S8x512 .f32 0x00000000#32))) shapeCasts_S8x512_S1x8x512 := rfl

/-- The second body's second payload is "what the buffer held, plus the block's per-domain sums of squared deviations
    from the table row read back per sample". -/
theorem k1_pay2_eq (x : FVec Ideal S2048x512 .f32) (ids : Vec Ideal S2048x1 .i32) (M : FVec Ideal S8x512 .f32)
    (acc : Vec Ideal S1x8x512 .f32) :
    k1_pay2 (F := Ideal) x ids M acc
      = shapeCast S1x8x512 (addf (shapeCast S8x512 acc shapeCasts_S1x8x512_S8x512)
          (matmul (F := Ideal) dot_S2048x8_S2048x512_S8x512_0_0_1_1_n_n (some .fp32) (onehot ids)
            (mulf
              (subf x (matmul (F := Ideal) dot_S2048x8_S8x512_S2048x512_1_0_0_1_n_n (some .fp32) (onehot ids)
                (shapeCast S8x512 M shapeCasts_S8x512_S8x512) (constant S2048x512 .f32 0x00000000#32)))
              (subf x (matmul (F := Ideal) dot_S2048x8_S8x512_S2048x512_1_0_0_1_n_n (some .fp32) (onehot ids)
                (shapeCast S8x512 M shapeCasts_S8x512_S8x512) (constant S2048x512 .f32 0x00000000#32))))
            (constant S8x512 .f32 0x00000000#32))) shapeCasts_S8x512_S1x8x512 := rfl

/-- The third body's payload is "the sample times the left half of the double table's row read back per sample, plus
    the right half of it". -/
theorem k2_pay1_eq (x : FVec Ideal S2048x512 .f32) (ids : Vec Ideal S2048x1 .i32) (AB : FVec Ideal S8x1024 .f32) :
    k2_pay1 (F := Ideal) x ids AB
      = addf
          (mulf x (extractStridedSlice S2048x512 ![0, 0]
            (matmul (F := Ideal) dot_S2048x8_S8x1024_S2048x1024_1_0_0_1_n_n (some .fp32) (onehot ids)
              (shapeCast S8x1024 AB shapeCasts_S8x1024_S8x1024) (constant S2048x1024 .f32 0x00000000#32))
            slices_S2048x1024_o0_0_S2048x512))
          (extractStridedSlice S2048x512 ![0, 512]
            (matmul (F := Ideal) dot_S2048x8_S8x1024_S2048x1024_1_0_0_1_n_n (some .fp32) (onehot ids)
              (shapeCast S8x1024 AB shapeCasts_S8x1024_S8x1024) (constant S2048x1024 .f32 0x00000000#32))
            slices_S2048x1024_o0_512_S2048x512) := rfl

end Cert.KernelIdeal.Val

end
-- ==== Proof.KRegion0.lean ====
/-
  The first launch (the per-domain sums), read as values.
-/
import proofs.«411909_j73443940761618_3_alg».proof.Proof.Gen.KernelIdeal.Frame
import proofs.«411909_j73443940761618_3_alg».proof.Proof.Spec
import proofs.«411909_j73443940761618_3_alg».proof.Proof.KOneHot
import Idealize.ShloMosaic.Lib.Pipeline.Value
import Idealize.ShloMosaic.PureOps.Ideal.Laws
import Idealize.ShloMosaic.Lib.Tactic
import Idealize.ShloMosaic.Lib.ValueLayout

set_option maxRecDepth 16384

noncomputable section

namespace Cert.KernelIdeal.Val

open Cert.KernelIdeal Cert.KernelIdeal.Gen Cert.DomainNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What each case of the body leaves in the result block's buffer -/

private theorem zeros3 : (![0, 0, 0] : Fin 3 → Nat) = fun _ => 0 := funext fun a => by fin_cases a <;> rfl
private theorem zeros2 : (![0, 0] : Fin 2 → Nat) = fun _ => 0 := funext fun a => by fin_cases a <;> rfl

/-- A point that is not the first of its half leaves "what the buffer held, plus the block's sums": the one store's
    payload, its three loads reading the whole buffers. -/
private theorem later_leaves (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (hc : ¬cond0_0 i) (x : Vec Ideal S2048x512 .f32) (ids : Vec Ideal S2048x1 .i32) (acc : Vec Ideal S1x8x512 .f32) :
    out0_B_2 (F := Ideal) c i a2 h2 a3 h3 a4 h4 hc x ids acc = k0_pay2 (F := Ideal) x ids acc := by
  unfold out0_B_2
  rw [View.read_writes_eq_canon _ _ _ (cover0_B_2 c i a2 h2 a3 h3 a4 h4 hc x ids acc)]
  unfold kernelRun0_B
  dsimp only
  sl_unfold_words
  rw [View.canon_unit_zero zeros3]
  simp only [View.readAt_eq_ld, h2.read_unread, h3.read_unread, h4.read_unread, View.ld_unit_zero (S := S2048x512) zeros2,
    View.ld_unit_zero (S := S2048x1) zeros2, View.ld_unit_zero (S := S1x8x512) zeros3]

/-- The first point of a half stores the zero block, reads it back, and leaves "zero, plus the block's sums": the later
    of its two stores covers the buffer, and its accumulator load reads the earlier one's payload. -/
private theorem first_leaves (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (hc : cond0_0 i) (x : Vec Ideal S2048x512 .f32) (ids : Vec Ideal S2048x1 .i32) :
    out0_A_2 (F := Ideal) c i a2 h2 a3 h3 a4 h4 hc x ids = k0_pay2 (F := Ideal) x ids (k0_pay1 (F := Ideal)) := by
  unfold out0_A_2
  rw [View.read_writes_eq_canon _ _ _ (cover0_A_2 c i a2 h2 a3 h3 a4 h4 hc x ids)]
  unfold kernelRun0_A
  dsimp only
  sl_unfold_words
  rw [View.canon_cons_unit_zero (S := S1x8x512) zeros3, View.readCov_unit_zero (S := S1x8x512) _ zeros3]
  simp only [View.readAt_eq_ld, h2.read_unread, h3.read_unread, View.ld_unit_zero (S := S2048x512) zeros2,
    View.ld_unit_zero (S := S2048x1) zeros2, View.ld_unit_zero (S := S1x8x512) zeros3]

/-! ## The payloads at an entry -/

/-- The zero block reads 0 everywhere. -/
private theorem zeroBlock_apply (j : S1x8x512.Idx) : k0_pay1 (F := Ideal) j = 0 := Ideal.ofBits_zero_f32

/-- Entry `(0, k, ch)` of "buffer plus block sums": the buffer's entry plus the sum over the block's rows of domain `k`'s
    indicator times the sample's channel `ch`. -/
private theorem accPlusBlock_apply (x : Vec Ideal S2048x512 .f32) (ids : Vec Ideal S2048x1 .i32) (acc : Vec Ideal S1x8x512 .f32)
    (k : Fin 8) (ch : Fin 512) :
    k0_pay2 (F := Ideal) x ids acc (ix3 (0 : Fin 1) k ch)
      = acc (ix3 (0 : Fin 1) k ch) + ∑ r : Fin 2048, oh (ids (ix2 r 0)) k * x (ix2 r ch) := by
  rw [k0_pay2_eq]
  refine (shapeCast_ab_1ab_apply _ _ (0 : Fin 1) k ch).trans ?_
  rw [addf_apply, sumRows_apply, shapeCast_1ab_ab_apply]

/-! ## Where the blocks sit -/

/-- The block indices of the three windows at a point, decided once over the 64 points: the sample block and the id block
    of point `t` are block `t` of their arrays; the result block is block `t / 32` of the result array. -/
private theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- The grid has 64 points. -/
private theorem lt64 (t : Fin cfg0.N) : t.val < 64 := lt_of_lt_of_eq t.isLt (show cfg0.N = 64 from N_0)

/-- The sample block at point `t`, at its literal type. -/
private abbrev xBlock (c : Dev nD) (t : Fin cfg0.N) : Vec Ideal S2048x512 .f32 := iblk0 V c 0 t
/-- The id block at point `t`, at its literal type. -/
private abbrev idBlock (c : Dev nD) (t : Fin cfg0.N) : Vec Ideal S2048x1 .i32 := iblk0 V c 1 t

/-- Row `r`, channel `ch` of the sample block at point `t` is row `t * 2048 + r` of the sample array. -/
private theorem xBlock_apply (c : Dev nD) (t : Fin cfg0.N) (r : Fin 2048) (ch : Fin 512) :
    xBlock V c t (ix2 r ch) = V c main_arg0 (ix2 (blkRow ⟨t.val, lt64 t⟩ r) ch) := by
  obtain ⟨e0, e1, -⟩ := blockIndex t
  show V c main_arg0 (((cfg0.win 0).blk t).view.emb (ix2 r ch)) = V c main_arg0 (ix2 (blkRow ⟨t.val, lt64 t⟩ r) ch)
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 512 + 1 * ch.val = ch.val; rw [e1]; omega

/-- Row `r` of the id block at point `t` is row `t * 2048 + r` of the id column. -/
private theorem idBlock_apply (c : Dev nD) (t : Fin cfg0.N) (r : Fin 2048) :
    idBlock V c t (ix2 r 0) = V c main_v1 (ix2 (blkRow ⟨t.val, lt64 t⟩ r) 0) := by
  obtain ⟨-, -, e0, e1, -⟩ := blockIndex t
  show V c main_v1 (((cfg0.win 1).blk t).view.emb (ix2 r 0)) = V c main_v1 (ix2 (blkRow ⟨t.val, lt64 t⟩ r) 0)
  congr 1
  funext a
  apply Fin.ext
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-! ## The running sum -/

/-- Block `n`'s share of domain `k`'s channel-`ch` sum: over the block's 2048 rows (nothing for an `n` past the 64 blocks). -/
private def blockSum (X : XArr) (dd : DCol) (n : ℕ) (k : Fin 8) (ch : Fin 512) : EReal :=
  if h : n < 64 then ∑ r : Fin 2048, oh (dd (ix2 (blkRow ⟨n, h⟩ r) 0)) k * X (ix2 (blkRow ⟨n, h⟩ r) ch) else 0

/-- The sum the body forms from the blocks of point `t` is block `t`'s share. -/
private theorem blockSum_of_blocks (c : Dev nD) (t : Fin cfg0.N) (k : Fin 8) (ch : Fin 512) :
    ∑ r : Fin 2048, oh (idBlock V c t (ix2 r 0)) k * xBlock V c t (ix2 r ch)
      = blockSum (V c main_arg0) (V c main_v1) t.val k ch := by
  unfold blockSum
  rw [dif_pos (lt64 t)]
  refine Finset.sum_congr rfl fun r _ => ?_
  rw [xBlock_apply, idBlock_apply]

/-- At the first point of a half the buffer is left at that block's share. -/
private theorem outsAt_first (c : Dev nD) (t : Fin cfg0.N) (h0 : t.val % 32 = 0) (k : Fin 8) (ch : Fin 512) :
    outsAt0 V c t.val t.isLt (ix3 (0 : Fin 1) k ch) = blockSum (V c main_arg0) (V c main_v1) t.val k ch := by
  rw [outsAt0_A V c t h0]
  refine (congrFun (first_leaves c (grid0.coords t) (ms0_0 t) (hs0_0 t) (ms0_1 t) (hs0_1 t) (ms0_2 t) (hs0_2 t)
    ((hcond0_0 t).mpr h0) (xBlock V c t) (idBlock V c t)) (ix3 (0 : Fin 1) k ch)).trans ?_
  rw [accPlusBlock_apply, zeroBlock_apply, zero_add]
  exact blockSum_of_blocks V c t k ch

/-- At any other point the buffer is left at what the point before left plus that block's share. -/
private theorem outsAt_later (c : Dev nD) (t : Fin cfg0.N) (h0 : ¬t.val % 32 = 0) (k : Fin 8) (ch : Fin 512) :
    outsAt0 V c t.val t.isLt (ix3 (0 : Fin 1) k ch)
      = outsAt0 V c (t.val - 1) (Nat.lt_of_le_of_lt (Nat.sub_le _ _) t.isLt) (ix3 (0 : Fin 1) k ch)
        + blockSum (V c main_arg0) (V c main_v1) t.val k ch := by
  rw [outsAt0_B V c t h0]
  refine (congrFun (later_leaves c (grid0.coords t) (ms0_0 t) (hs0_0 t) (ms0_1 t) (hs0_1 t) (ms0_2 t) (hs0_2 t)
    (fun h => h0 ((hcond0_0 t).mp h)) (xBlock V c t) (idBlock V c t)
    (outsAt0 V c (t.val - 1) (Nat.lt_of_le_of_lt (Nat.sub_le _ _) t.isLt))) (ix3 (0 : Fin 1) k ch)).trans ?_
  rw [accPlusBlock_apply]
  exact congrArg _ (blockSum_of_blocks V c t k ch)

/-- After point `n` the buffer's entry `(0, k, ch)` is the sum of the shares of the blocks of `n`'s half up to `n`: by
    induction on the point, the first point of a half starting the sum anew. -/
private theorem outsAt_eq (c : Dev nD) (k : Fin 8) (ch : Fin 512) : ∀ (n : ℕ) (h : n < cfg0.N),
    outsAt0 V c n h (ix3 (0 : Fin 1) k ch)
      = ∑ s ∈ Finset.range (n % 32 + 1), blockSum (V c main_arg0) (V c main_v1) (n / 32 * 32 + s) k ch
  | 0, h => by
    rw [outsAt_first V c ⟨0, h⟩ rfl k ch]
    show _ = ∑ s ∈ Finset.range 1, blockSum (V c main_arg0) (V c main_v1) (0 + s) k ch
    rw [Finset.sum_range_one]
  | n + 1, h => by
    by_cases h0 : (n + 1) % 32 = 0
    · rw [outsAt_first V c ⟨n + 1, h⟩ h0 k ch, h0, Finset.sum_range_one]
      show blockSum _ _ (n + 1) k ch = _
      congr 1
      omega
    · rw [outsAt_later V c ⟨n + 1, h⟩ h0 k ch]
      show outsAt0 V c n _ (ix3 (0 : Fin 1) k ch) + blockSum _ _ (n + 1) k ch = _
      rw [outsAt_eq c k ch n (Nat.lt_of_succ_lt h)]
      have e1 : (n + 1) % 32 = n % 32 + 1 := by omega
      have e2 : (n + 1) / 32 = n / 32 := by omega
      rw [e1, e2, Finset.sum_range_succ _ (n % 32 + 1)]
      congr 2
      omega

/-- The 32 blocks of half `p` are blocks `p * 32` … `p * 32 + 31` of the 64: their shares add up to the half's. -/
private theorem sum_blocks (X : XArr) (dd : DCol) (p : Fin 2) (k : Fin 8) (ch : Fin 512) :
    ∑ s ∈ Finset.range 32, blockSum X dd (p.val * 32 + s) k ch = partSum X dd p k ch := by
  unfold partSum
  rw [Finset.sum_range]
  refine Finset.sum_congr rfl fun s _ => ?_
  have hlt : p.val * 32 + s.val < 64 := by have := p.isLt; have := s.isLt; omega
  unfold blockSum
  rw [dif_pos hlt]
  refine Finset.sum_congr rfl fun r _ => ?_
  have e : blkRow ⟨p.val * 32 + s.val, hlt⟩ r = rowOf p s r :=
    Fin.ext (by show (p.val * 32 + s.val) * 2048 + r.val = p.val * 65536 + s.val * 2048 + r.val; omega)
  rw [e]

/-! ## From the blocks to the result array -/

/-- The result array as one function of the samples and the ids: entry `(p, k, ch)` is half `p`'s share. -/
private def halves (X : XArr) (dd : DCol) : S2x8x512.Idx → EReal :=
  fun j => partSum X dd ⟨(j 0).val, (j 0).isLt⟩ ⟨(j 1).val, (j 1).isLt⟩ ⟨(j 2).val, (j 2).isLt⟩

/-- Two contents of a `[1, 8, 512]` block that agree at every `(0, k, ch)` are equal. -/
private theorem block_ext {α : Type} (A B : S1x8x512.Idx → α)
    (h : ∀ (k : Fin 8) (ch : Fin 512), A (ix3 (0 : Fin 1) k ch) = B (ix3 (0 : Fin 1) k ch)) : A = B := by
  funext y
  obtain ⟨u, k, ch, rfl⟩ : ∃ (u : Fin 1) (k : Fin 8) (ch : Fin 512), y = ix3 u k ch := ⟨y 0, y 1, y 2, eq_ix3 y⟩
  obtain rfl : u = 0 := Subsingleton.elim _ _
  exact h k ch

/-- What a writing-back point (the last of a half) writes back is its block of that function: the buffer holds the sum
    over all 32 blocks of the half, and the block sits at half `t / 32` of the result array. -/
private theorem flushed_eq (c : Dev nD) (t : Fin cfg0.N) (hf : (cfg0.win 2).flush t = true) :
    (dat0 V c).flushed 2 t = ((cfg0.win 2).blk t).view.read (Elt Ideal) (halves (V c main_arg0) (V c main_v1)) := by
  have h31 : t.val % 32 = 31 := (flush0_2 t).mp hf
  have hN : t.val < 64 := lt64 t
  obtain ⟨-, -, -, -, e0, e1, e2⟩ := blockIndex t
  show (cfg0.win 2).cut (grid0.coords t) ((dat0 V c).after 2 t) = _
  rw [after0_2]
  refine block_ext _ _ fun k ch => ?_
  show outsAt0 V c t.val t.isLt (ix3 (0 : Fin 1) k ch)
    = halves (V c main_arg0) (V c main_v1) (((cfg0.win 2).blk t).view.emb (ix3 (0 : Fin 1) k ch))
  have hemb : ((cfg0.win 2).blk t).view.emb (ix3 (0 : Fin 1) k ch)
      = (ix3 (⟨t.val / 32, by omega⟩ : Fin 2) k ch : S2x8x512.Idx) := by
    funext a
    apply Fin.ext
    match a with
    | ⟨0, _⟩ => show win0_2.index t (0 : Fin 3) * 1 + 1 * 0 = t.val / 32; rw [e0, Nat.mul_one, Nat.mul_zero, Nat.add_zero]
    | ⟨1, _⟩ => show win0_2.index t (1 : Fin 3) * 8 + 1 * k.val = k.val; rw [e1]; omega
    | ⟨2, _⟩ => show win0_2.index t (2 : Fin 3) * 512 + 1 * ch.val = ch.val; rw [e2]; omega
  rw [hemb, outsAt_eq V c k ch t.val t.isLt, h31]
  exact sum_blocks (V c main_arg0) (V c main_v1) ⟨t.val / 32, by omega⟩ k ch

/-- Every entry `(p, ·, ·)` of the result array lies in the block the last point of half `p` writes back. -/
private theorem covered (i : S2x8x512.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 512 := (i 2).isLt
  let t : Fin cfg0.N := ⟨(i 0).val * 32 + 31, lt_of_lt_of_eq (by omega : (i 0).val * 32 + 31 < 64) (show 64 = cfg0.N from N_0.symm)⟩
  have ht : t.val = (i 0).val * 32 + 31 := rfl
  obtain ⟨-, -, -, -, e0, e1, e2⟩ := blockIndex t
  refine ⟨t, (flush0_2 t).mpr (by rw [ht]; omega), ?_⟩
  show i ∈ ((View.whole main_v8).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 512 ≤ (i 2).val ∧ (i 2).val < win0_2.index t (2 : Fin 3) * 512 + 512
    rw [e2]; omega

/-- So the result array ends holding the two halves' shares. -/
private theorem result_eq (c : Dev nD) :
    (dat0 (F := Ideal) V c).arrAt 2 cfg0.N = halves (V c main_arg0) (V c main_v1) :=
  (dat0 V c).arrAt_eq_of_cover 2 (halves (V c main_arg0) (V c main_v1)) (flushed_eq V c) covered

/-- After the first launch its result array holds, at half `p`, domain `k`, channel `ch`, that half's share of the
    domain's channel sum. -/
theorem region0_value (c : Dev nD) (p : Fin 2) (k : Fin 8) (ch : Fin 512) :
    (dat0 (F := Ideal) V c).arrAt 2 cfg0.N (ix3 p k ch) = partSum (V c main_arg0) (V c main_v1) p k ch := by
  rw [result_eq V c]
  rfl

end Cert.KernelIdeal.Val

end
-- ==== Proof.LibScatterVec.lean ====
/-
  A scatter-add of a vector of updates into a vector, read at an index.

  A float `stablehlo.scatter` with an `add` body whose operand is a rank-1 array, whose updates are a rank-1 array with
  one scatter index per update (axis 0 inserted, no window axis), at the exact instance: the operand's element plus the sum
  of the updates aimed at it. The statement takes an arbitrary dimension-number record with equations naming its fields, so
  it applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.VecGS

open Idealize.ShloMosaic Idealize.ShloMosaic.ValueIdx

variable {N E w : Nat}

/-! ## The target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start of update `e` on the operand's one axis is the scatter index of `e`, read signed. -/
private theorem s1_start0 (wf) (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Update `e` lands on `n` exactly when the scatter index of `e`, read signed, is `n`: the one operand axis is
    inserted, so there is no window coordinate to add. -/
private theorem s1_resultIdx?_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  dsimp only at huw hiw hsd hiv
  subst huw hiw hsd hiv
  rw [resultIdx?_eq_some]
  have w0 := window_inserted (⟨[], [0], [0], 1, wf⟩ : ScatterDims ⟨1, ![N]⟩ ⟨2, ![E, 1]⟩ ⟨1, ![E]⟩)
    (ix1 e) 0 List.mem_cons_self
  constructor
  · intro h
    have h0 := h 0
    rw [s1_start0, w0, Nat.cast_zero, Int.add_zero] at h0
    exact h0
  · intro h0 a
    match a with
    | ⟨0, _⟩ =>
      show ScatterDims.start _ (ix1 e) idx 0 + ((ScatterDims.window _ (ix1 e) 0 : Nat) : Int) = _
      rw [s1_start0, w0, Nat.cast_zero, Int.add_zero]; exact h0

/-! ## A sum over a rank-1 index set -/

/-- A rank-1 index set is its one coordinate range … -/
private def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## The scatter-add read at an index -/

/-- `x.at[idx].add(upd)` over a rank-1 operand READ AT `n`, at the exact instance: the operand's element plus the sum of
    the updates aimed at `n` (a scatter index outside the operand aims at nothing). -/
theorem scatterAdd_vec_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  congr 1
  rw [Finset.sum_filter, sum_idx1]
  refine Finset.sum_congr rfl fun e _ => ?_
  by_cases he : (idx (ix2 e 0)).toInt = (n.val : Int)
  · rw [if_pos he, if_pos ((s1_resultIdx?_iff d huw hiw hsd hiv idx e n).2 he)]
  · rw [if_neg he, if_neg fun h => he ((s1_resultIdx?_iff d huw hiw hsd hiv idx e n).1 h)]

end Idealize.ShloMosaic.VecGS

end
-- ==== Proof.KHostA.lean ====
/-
  The kernel program's host operations before its first two launches, read at the run's boundary contents: the domain ids
  as a column, the per-domain counts and their guard, and — from the first launch's two half-sums — the guarded mean table.
-/
import proofs.«411909_j73443940761618_3_alg».proof.Proof.KRegion0
import proofs.«411909_j73443940761618_3_alg».proof.Proof.LibScatterVec
import Idealize.ShloMosaic.Lib.StableHlo.Run
import Idealize.ShloMosaic.Lib.StableHlo.Predicate
import Idealize.ShloMosaic.Lib.IdealHost
import Idealize.ShloMosaic.Lib.Pipeline.Value

set_option maxRecDepth 16384

noncomputable section

namespace Cert.KernelIdeal.Val

open Cert.KernelIdeal Cert.KernelIdeal.Gen Cert.DomainNorm
open Idealize.ShloMosaic Idealize.ShloMosaic.TcCoe Idealize.ShloMosaic.ValueIdx Idealize.SL.Sem
open Idealize.ShloMosaic.Pipeline (Dat)

/-! ## A buffer that a stretch of host operations does not write keeps its contents -/

/-- Closes `after ops V b = V b` for a literal stretch `ops` none of whose operations has `b` as its result. -/
local macro "not_written" : tactic =>
  `(tactic| (refine StableHlo.after_of_forall_not_mem _ _ (List.forall_iff_forall_mem.mp ?_)
             simp only [hostOps0, hostOps0_1, hostOps0_2, hostOps1, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

section Stretches

variable (Vv : Valuation τ sig (Elt Ideal))

/-! ### The two clamp bounds -/

private theorem ops0_arg0 : StableHlo.after (hostOps0 (F := Ideal)) Vv (Proc.devRef .tc main_arg0) = Vv (Proc.devRef .tc main_arg0) := by
  not_written
private theorem ops0_arg1 : StableHlo.after (hostOps0 (F := Ideal)) Vv (Proc.devRef .tc main_arg1) = Vv (Proc.devRef .tc main_arg1) := by
  not_written
/-- The lower bound is the word 0. -/
private theorem ops0_c : (StableHlo.after (hostOps0 (F := Ideal)) Vv (Proc.devRef .tc main_c) : IVec S_ 32) = constantI S_ 32 0#32 := by
  after_results
/-- The upper bound is the word 7. -/
private theorem ops0_c0 : (StableHlo.after (hostOps0 (F := Ideal)) Vv (Proc.devRef .tc main_c_0) : IVec S_ 32) = constantI S_ 32 7#32 := by
  after_results

/-! ### The clamp -/

private theorem ops01_arg0 : StableHlo.after (hostOps0_1 (F := Ideal)) Vv (Proc.devRef .tc main_arg0) = Vv (Proc.devRef .tc main_arg0) := by
  not_written
/-- The clamped ids: the minimum with the upper bound of the maximum with the lower bound, both bounds spread over the
    131072 positions. -/
private theorem ops01_v0 :
    (StableHlo.after (hostOps0_1 (F := Ideal)) Vv (Proc.devRef .tc main_v0) : IVec S131072 32)
      = minsi (broadcastInDim S131072 ![] bcast_S_S131072 (Vv (Proc.devRef .tc main_c_0) : IVec S_ 32))
          (maxsi (broadcastInDim S131072 ![] bcast_S_S131072 (Vv (Proc.devRef .tc main_c) : IVec S_ 32))
            (Vv (Proc.devRef .tc main_arg1) : IVec S131072 32)) := by
  after_results
  rfl

/-! ### The column of ids, the counts and their guard -/

private theorem ops02_arg0 : StableHlo.after (hostOps0_2 (F := Ideal)) Vv (Proc.devRef .tc main_arg0) = Vv (Proc.devRef .tc main_arg0) := by
  not_written
/-- The id column is the clamped ids recast from [131072] to [131072, 1]. -/
private theorem ops02_v1 :
    (StableHlo.after (hostOps0_2 (F := Ideal)) Vv (Proc.devRef .tc main_v1) : IVec S131072x1 32)
      = shapeCast S131072x1 (Vv (Proc.devRef .tc main_v0) : IVec S131072 32) shapeCasts_S131072_S131072x1 := by
  after_results
  rfl
/-- The counts: into eight zeros, a one added per sample at the position its clamped id names. -/
private theorem ops02_v5 :
    (StableHlo.after (hostOps0_2 (F := Ideal)) Vv (Proc.devRef .tc main_v5) : FVec Ideal S8 .f32)
      = Host.scatterAdd (F := Ideal) scatter_S8_S131072x1_S131072_n_0_0_1
          (broadcastInDim S8 ![] bcast_S_S8 (constant (F := Ideal) S_ .f32 0x00000000#32))
          (broadcastInDim S131072x1 ![0] bcast_S131072_S131072x1_0 (Vv (Proc.devRef .tc main_v0) : IVec S131072 32))
          (broadcastInDim S131072 ![] bcast_S_S131072 (constant (F := Ideal) S_ .f32 0x3F800000#32)) := by
  after_results
/-- The guarded counts: the larger of each count and one. -/
private theorem ops02_v7 :
    (StableHlo.after (hostOps0_2 (F := Ideal)) Vv (Proc.devRef .tc main_v7) : FVec Ideal S8 .f32)
      = maximumf (StableHlo.after (hostOps0_2 (F := Ideal)) Vv (Proc.devRef .tc main_v5) : FVec Ideal S8 .f32)
          (broadcastInDim S8 ![] bcast_S_S8 (constant (F := Ideal) S_ .f32 0x3F800000#32)) := by
  rw [ops02_v5]
  after_results

/-! ### The mean table -/

private theorem ops1_arg0 : StableHlo.after (hostOps1 (F := Ideal)) Vv (Proc.devRef .tc main_arg0) = Vv (Proc.devRef .tc main_arg0) := by
  not_written
private theorem ops1_v1 : StableHlo.after (hostOps1 (F := Ideal)) Vv (Proc.devRef .tc main_v1) = Vv (Proc.devRef .tc main_v1) := by
  not_written
private theorem ops1_v5 : StableHlo.after (hostOps1 (F := Ideal)) Vv (Proc.devRef .tc main_v5) = Vv (Proc.devRef .tc main_v5) := by
  not_written
private theorem ops1_v7 : StableHlo.after (hostOps1 (F := Ideal)) Vv (Proc.devRef .tc main_v7) = Vv (Proc.devRef .tc main_v7) := by
  not_written
/-- The mean table: the first launch's two half-sums added from zero, divided by the guarded counts spread over the
    512 channels. -/
private theorem ops1_v12 :
    (StableHlo.after (hostOps1 (F := Ideal)) Vv (Proc.devRef .tc main_v12) : FVec Ideal S8x512 .f32)
      = Host.divf (F := Ideal)
          (Host.reduceAdd (F := Ideal) (Vv (Proc.devRef .tc main_v8) : FVec Ideal S2x8x512 .f32)
            (constant (F := Ideal) S_ .f32 0x00000000#32) reducesTo_S2x8x512_S8x512_d0 h_S_)
          (broadcastInDim S8x512 ![0, 1] bcast_S8x1_S8x512_0_1
            (broadcastInDim S8x1 ![0] bcast_S8_S8x1_0 (Vv (Proc.devRef .tc main_v7) : FVec Ideal S8 .f32))) := by
  after_results

end Stretches

/-! ## Words -/

/-- A word below eight is its own clamp into [0, 7]: read signed it is not below 0, and 7 is not below it. -/
private theorem clamp_small (w : BitVec 32) (hw : w.toNat < 8) : IntOp.minsi 7#32 (IntOp.maxsi 0#32 w) = w := by
  have hti : w.toInt = w.toNat := StableHlo.Predicate.toInt_eq_toNat_of_lt (by omega)
  have h0 : (0#32 : BitVec 32).toInt = 0 := by decide
  have h7 : (7#32 : BitVec 32).toInt = 7 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h7, decide_eq_true_eq]; omega

/-- A word below eight, read signed, is the domain number `k` exactly when it is so read unsigned. -/
private theorem toInt_eq_dom_iff (w : BitVec 32) (hw : w.toNat < 8) (k : Fin 8) : w.toInt = (k.val : Int) ↔ w.toNat = k.val := by
  rw [StableHlo.Predicate.toInt_eq_toNat_of_lt (by omega)]
  exact Int.ofNat_inj

/-! ## The clamped ids are the ids -/

/-- Where every id is below eight, the clamp between the spread bounds 0 and 7 returns the ids. -/
private theorem clamp_ids (d : DVec) (hd : ∀ i : Fin 131072, (d (ix1 i)).toNat < 8) :
    minsi (broadcastInDim S131072 ![] bcast_S_S131072 (constantI S_ 32 7#32))
        (maxsi (broadcastInDim S131072 ![] bcast_S_S131072 (constantI S_ 32 0#32)) d) = d := by
  funext j
  obtain ⟨i, rfl⟩ : ∃ i : Fin 131072, j = ix1 i := ⟨j 0, eq_ix1 j⟩
  exact clamp_small _ (hd i)

/-- The recast of a vector of 131072 words to a column is the vector read by the row. -/
private theorem col_of_vec (d : DVec) : shapeCast S131072x1 d shapeCasts_S131072_S131072x1 = dcol d := by
  funext j
  obtain ⟨i, z, rfl⟩ : ∃ (i : Fin 131072) (z : Fin 1), j = ix2 i z := ⟨j 0, j 1, eq_ix2 j⟩
  refine (shapeCast_apply d shapeCasts_S131072_S131072x1 (ix2 i z) (ix1 i) ?_).trans ?_
  · rw [Shape.rowMajor_val_one, Shape.rowMajor_val_two]
    show i.val = i.val * 1 + z.val
    omega
  · rfl

/-- The spread of a vector of 131072 words along a new unit axis, read at row `e`, is the vector at `e`. -/
private theorem bcol_apply (d : DVec) (e : Fin 131072) :
    broadcastInDim S131072x1 ![0] bcast_S131072_S131072x1_0 d (ix2 e 0) = d (ix1 e) := by
  refine broadcastInDim_apply _ _ d (ix2 e 0) (ix1 e) fun a => ?_
  match a with
  | ⟨0, _⟩ =>
    show e.val = if (131072 : Nat) = 1 then 0 else e.val
    rw [if_neg (by decide)]

/-! ## The counts -/

/-- Ones scattered into eight zeros by ids below eight count each domain's samples. -/
private theorem counts_eq (d v : DVec) (hv : v = d) (hd : ∀ i : Fin 131072, (d (ix1 i)).toNat < 8) (k : Fin 8) :
    Host.scatterAdd (F := Ideal) scatter_S8_S131072x1_S131072_n_0_0_1
        (broadcastInDim S8 ![] bcast_S_S8 (constant (F := Ideal) S_ .f32 0x00000000#32))
        (broadcastInDim S131072x1 ![0] bcast_S131072_S131072x1_0 v)
        (broadcastInDim S131072 ![] bcast_S_S131072 (constant (F := Ideal) S_ .f32 0x3F800000#32)) (ix1 k)
      = cnt d k := by
  subst v
  refine (VecGS.scatterAdd_vec_apply scatter_S8_S131072x1_S131072_n_0_0_1 rfl rfl rfl rfl _ _ _ k).trans ?_
  rw [broadcastInDim_scalar_apply, constant_apply, Ideal.ofBits_zero_f32, zero_add]
  unfold cnt
  refine Finset.sum_congr rfl fun e _ => ?_
  rw [bcol_apply, broadcastInDim_scalar_apply, constant_apply, Ideal.ofBits_one_f32]
  unfold oh
  by_cases he : (d (ix1 e)).toNat = k.val
  · rw [if_pos he, if_pos ((toInt_eq_dom_iff _ (hd e) k).2 he)]
  · rw [if_neg he, if_neg fun h => he ((toInt_eq_dom_iff _ (hd e) k).1 h)]

/-! ## The run's boundaries -/

variable (m : (ℓ : Loc nD τ sig) → Buf (Elt Ideal) ℓ) (ρ : Dev nD → PrngReg)

/-- At launch a buffer holds the launch memory. -/
private theorem W0_arg0 (c : Dev nD) : W0 (F := Ideal) m ρ c (Proc.devRef .tc main_arg0) = m ((c.tc : Thread nD τ).loc main_arg0) := rfl
private theorem W0_arg1 (c : Dev nD) : W0 (F := Ideal) m ρ c (Proc.devRef .tc main_arg1) = m ((c.tc : Thread nD τ).loc main_arg1) := rfl

/-- The clamped ids are the ids, where every id is below eight. -/
private theorem W2_v0 (c : Dev nD) (hd : ∀ i : Fin 131072, ((m ((c.tc : Thread nD τ).loc main_arg1) : DVec) (ix1 i)).toNat < 8) :
    (W2 (F := Ideal) m ρ c (Proc.devRef .tc main_v0) : DVec) = m ((c.tc : Thread nD τ).loc main_arg1) := by
  refine (ops01_v0 (W1 m ρ c)).trans ?_
  refine Eq.trans ?_ (clamp_ids _ hd)
  exact congrArg₂ minsi (congrArg (broadcastInDim S131072 ![] bcast_S_S131072) (ops0_c0 (W0 m ρ c)))
    (congrArg₂ maxsi (congrArg (broadcastInDim S131072 ![] bcast_S_S131072) (ops0_c (W0 m ρ c)))
      ((ops0_arg1 (W0 m ρ c)).trans (W0_arg1 m ρ c)))

/-- The samples reach the first launch as launched. -/
theorem V3_arg0 (c : Dev nD) : V3 (F := Ideal) m ρ c main_arg0 = m ((c.tc : Thread nD τ).loc main_arg0) :=
  (ops02_arg0 (W2 m ρ c)).trans ((ops01_arg0 (W1 m ρ c)).trans ((ops0_arg0 (W0 m ρ c)).trans (W0_arg0 m ρ c)))

/-- The id column the launches read: the ids clamped into [0, 7] and laid out as a column — the ids themselves where every
    id is one of the eight. -/
theorem V3_v1 (c : Dev nD) (hd : ∀ i : Fin 131072, ((m ((c.tc : Thread nD τ).loc main_arg1) : DVec) (ix1 i)).toNat < 8) :
    (V3 (F := Ideal) m ρ c main_v1 : DCol) = dcol (m ((c.tc : Thread nD τ).loc main_arg1)) := by
  refine (ops02_v1 (W2 m ρ c)).trans ?_
  refine Eq.trans ?_ (col_of_vec _)
  exact congrArg (fun v : DVec => shapeCast S131072x1 v shapeCasts_S131072_S131072x1) (W2_v0 m ρ c hd)

/-- The per-domain counts: ones scattered by the clamped ids. -/
theorem V3_v5 (c : Dev nD) (hd : ∀ i : Fin 131072, ((m ((c.tc : Thread nD τ).loc main_arg1) : DVec) (ix1 i)).toNat < 8)
    (k : Fin 8) :
    V3 (F := Ideal) m ρ c main_v5 (ix1 k) = cnt (m ((c.tc : Thread nD τ).loc main_arg1)) k := by
  exact (congrFun (ops02_v5 (W2 m ρ c)) (ix1 k)).trans (counts_eq _ _ (W2_v0 m ρ c hd) hd k)

/-- The mean's guarded divisor. -/
theorem V3_v7 (c : Dev nD) (hd : ∀ i : Fin 131072, ((m ((c.tc : Thread nD τ).loc main_arg1) : DVec) (ix1 i)).toNat < 8)
    (k : Fin 8) :
    V3 (F := Ideal) m ρ c main_v7 (ix1 k) = max (cnt (m ((c.tc : Thread nD τ).loc main_arg1)) k) 1 := by
  refine (congrFun (ops02_v7 (W2 m ρ c)) (ix1 k)).trans ?_
  refine (maximumf_apply _ _ _).trans ?_
  refine congrArg₂ max (V3_v5 m ρ c hd k) ?_
  rw [broadcastInDim_scalar_apply, constant_apply, Ideal.ofBits_one_f32]

/-! ## Across the first launch -/

/-- The first launch only reads the samples and the id column: at its exit they are as at its entry. -/
private theorem W4_arg0 (c : Dev nD) :
    W4 (F := Ideal) m ρ c (Proc.devRef .tc main_arg0) = W3 (F := Ideal) m ρ c (Proc.devRef .tc main_arg0) :=
  (W4_arr m ρ c 0).trans (((dat0 (V3 m ρ) c).arrAt_in 0 rfl _).trans (A_eq0 (V3 m ρ) c 0))
private theorem W4_v1 (c : Dev nD) :
    W4 (F := Ideal) m ρ c (Proc.devRef .tc main_v1) = W3 (F := Ideal) m ρ c (Proc.devRef .tc main_v1) :=
  (W4_arr m ρ c 1).trans (((dat0 (V3 m ρ) c).arrAt_in 1 rfl _).trans (A_eq0 (V3 m ρ) c 1))
/-- The counts and their guard are no array of the first launch: it leaves them as entered. -/
private theorem W4_v5 (c : Dev nD) :
    W4 (F := Ideal) m ρ c (Proc.devRef .tc main_v5) = W3 (F := Ideal) m ρ c (Proc.devRef .tc main_v5) :=
  W4_of_ne m ρ c main_v5 (by decide)
private theorem W4_v7 (c : Dev nD) :
    W4 (F := Ideal) m ρ c (Proc.devRef .tc main_v7) = W3 (F := Ideal) m ρ c (Proc.devRef .tc main_v7) :=
  W4_of_ne m ρ c main_v7 (by decide)

/-- The samples reach the second launch as launched. -/
theorem V5_arg0 (c : Dev nD) : V5 (F := Ideal) m ρ c main_arg0 = m ((c.tc : Thread nD τ).loc main_arg0) :=
  (ops1_arg0 (W4 m ρ c)).trans ((W4_arg0 m ρ c).trans (V3_arg0 m ρ c))

/-- So does the id column. -/
theorem V5_v1 (c : Dev nD) (hd : ∀ i : Fin 131072, ((m ((c.tc : Thread nD τ).loc main_arg1) : DVec) (ix1 i)).toNat < 8) :
    (V5 (F := Ideal) m ρ c main_v1 : DCol) = dcol (m ((c.tc : Thread nD τ).loc main_arg1)) :=
  (ops1_v1 (W4 m ρ c)).trans ((W4_v1 m ρ c).trans (V3_v1 m ρ c hd))

/-- And the counts. -/
theorem V5_v5 (c : Dev nD) (hd : ∀ i : Fin 131072, ((m ((c.tc : Thread nD τ).loc main_arg1) : DVec) (ix1 i)).toNat < 8)
    (k : Fin 8) :
    V5 (F := Ideal) m ρ c main_v5 (ix1 k) = cnt (m ((c.tc : Thread nD τ).loc main_arg1)) k :=
  (congrFun ((ops1_v5 (W4 m ρ c)).trans (W4_v5 m ρ c)) (ix1 k)).trans (V3_v5 m ρ c hd k)

/-! ## The mean table -/

/-- Over the result position (k, ch), the source position whose coordinate on the summed axis is `p` is (p, k, ch). -/
private theorem lift_half (h : S2x8x512.Reduces [0] S8x512) (k : Fin 8) (ch : Fin 512) (p : Fin 2) :
    h.lift (ix2 k ch) p = ix3 p k ch := by
  funext a
  match a with
  | ⟨0, _⟩ => exact Fin.ext rfl
  | ⟨1, _⟩ => exact Fin.ext rfl
  | ⟨2, _⟩ => exact Fin.ext rfl

/-- The sum over the two halves, from zero, is the first half's entry plus the second's. -/
private theorem reduce_halves (x : FVec Ideal S2x8x512 .f32) (k : Fin 8) (ch : Fin 512) :
    Host.reduceAdd (F := Ideal) x (constant (F := Ideal) S_ .f32 0x00000000#32) reducesTo_S2x8x512_S8x512_d0 h_S_ (ix2 k ch)
      = x (ix3 0 k ch) + x (ix3 1 k ch) := by
  have h : S2x8x512.Reduces [0] S8x512 := by decide
  refine (hostReduceAdd_apply x _ reducesTo_S2x8x512_S8x512_d0 h_S_ (ix2 k ch)).trans ?_
  refine (Ideal.hostReduceAdd_single reducesTo_S2x8x512_S8x512_d0 h x _ (ix2 k ch)).trans ?_
  rw [constant_apply, Ideal.ofBits_zero_f32, zero_add]
  refine (Fin.sum_univ_two (fun p : Fin 2 => x (h.lift (ix2 k ch) p))).trans ?_
  rw [lift_half, lift_half]

/-- A vector of eight spread along a new unit axis and then over 512 columns reads, at (k, ch), the vector at `k`. -/
private theorem bguard_apply (v : FVec Ideal S8 .f32) (k : Fin 8) (ch : Fin 512) :
    broadcastInDim S8x512 ![0, 1] bcast_S8x1_S8x512_0_1 (broadcastInDim S8x1 ![0] bcast_S8_S8x1_0 v) (ix2 k ch) = v (ix1 k) := by
  refine (broadcastInDim_apply _ _ _ (ix2 k ch) (ix2 k (0 : Fin 1)) fun a => ?_).trans ?_
  · match a with
    | ⟨0, _⟩ =>
      show k.val = if (8 : Nat) = 1 then 0 else k.val
      rw [if_neg (by decide)]
    | ⟨1, _⟩ =>
      show (0 : Nat) = if (1 : Nat) = 1 then 0 else ch.val
      rw [if_pos rfl]
  · refine broadcastInDim_apply _ _ v (ix2 k (0 : Fin 1)) (ix1 k) fun a => ?_
    match a with
    | ⟨0, _⟩ =>
      show k.val = if (8 : Nat) = 1 then 0 else k.val
      rw [if_neg (by decide)]

/-- At the first launch's exit its result array holds the two halves' shares of each domain's channel sums. -/
private theorem W4_v8 (c : Dev nD) (hd : ∀ i : Fin 131072, ((m ((c.tc : Thread nD τ).loc main_arg1) : DVec) (ix1 i)).toNat < 8)
    (p : Fin 2) (k : Fin 8) (ch : Fin 512) :
    (W4 (F := Ideal) m ρ c (Proc.devRef .tc main_v8) : FVec Ideal S2x8x512 .f32) (ix3 p k ch)
      = partSum (m ((c.tc : Thread nD τ).loc main_arg0)) (dcol (m ((c.tc : Thread nD τ).loc main_arg1))) p k ch := by
  refine (congrFun (W4_arr m ρ c 2) (ix3 p k ch)).trans ?_
  refine (region0_value (V3 m ρ) c p k ch).trans ?_
  rw [V3_arg0 m ρ c, V3_v1 m ρ c hd]

/-- The mean table the second launch is given: the two halves' sums added, over the guarded count. -/
theorem V5_v12 (c : Dev nD) (hd : ∀ i : Fin 131072, ((m ((c.tc : Thread nD τ).loc main_arg1) : DVec) (ix1 i)).toNat < 8) :
    (V5 (F := Ideal) m ρ c main_v12 : Tab)
      = tab (kMean (m ((c.tc : Thread nD τ).loc main_arg0)) (m ((c.tc : Thread nD τ).loc main_arg1))) := by
  funext j
  obtain ⟨k, ch, rfl⟩ : ∃ (k : Fin 8) (ch : Fin 512), j = ix2 k ch := ⟨j 0, j 1, eq_ix2 j⟩
  refine (congrFun (ops1_v12 (W4 m ρ c)) (ix2 k ch)).trans ?_
  refine (hostDivf_apply _ _ (ix2 k ch)).trans ?_
  rw [tab_ix2]
  unfold kMean
  refine congrArg₂ Ideal.div ?_ ?_
  · refine (reduce_halves _ k ch).trans ?_
    rw [W4_v8 m ρ c hd 0 k ch, W4_v8 m ρ c hd 1 k ch]
  · refine (bguard_apply _ k ch).trans ?_
    exact (congrFun (W4_v7 m ρ c) (ix1 k)).trans (V3_v7 m ρ c hd k)

end Cert.KernelIdeal.Val

end
-- ==== Proof.KRegion1.lean ====
/-
  The second launch (the per-domain sums of squared deviations), read as values.

  The launch runs over 64 points `t = 32 p + s`: half `p`, block `s`. Point `t` reads rows `2048 t … 2048 t + 2047` of the
  samples and of the id column and the whole mean table, and keeps, across a half's 32 points, one `[1, 8, 512]` block of
  the result: zeroed at the half's first point, increased at every point by the block's per-domain sums of squared
  deviations from the table row read back per sample, written back at the half's last point. So after the launch entry
  `(p, k, ch)` of the result is the sum over half `p`'s 32 blocks and each block's 2048 rows.
-/
import proofs.«411909_j73443940761618_3_alg».proof.Proof.Gen.KernelIdeal.Frame
import proofs.«411909_j73443940761618_3_alg».proof.Proof.Spec
import proofs.«411909_j73443940761618_3_alg».proof.Proof.KOneHot
import Idealize.ShloMosaic.Lib.Pipeline.Value
import Idealize.ShloMosaic.PureOps.Ideal.Laws
import Idealize.ShloMosaic.Lib.Tactic

set_option maxRecDepth 16384

noncomputable section

namespace Cert.KernelIdeal.Val

open Cert.KernelIdeal Cert.KernelIdeal.Gen Cert.DomainNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem hz3 : (![0, 0, 0] : Fin 3 → Nat) = fun _ => 0 := funext fun a => by fin_cases a <;> rfl
private theorem hz2 : (![0, 0] : Fin 2 → Nat) = fun _ => 0 := funext fun a => by fin_cases a <;> rfl

section Pieces
variable {F : FTy → Type} [FloatOps F]

private theorem out_B (c : Dev nD) (i : grid1.Coords) (a2 : Memref sig .tc .vmem S2048x512 .f32) (h2 : a2.IsWhole)
    (a3 : Memref sig .tc .vmem S2048x1 .i32) (h3 : a3.IsWhole) (a4 : Memref sig .tc .vmem S8x512 .f32) (h4 : a4.IsWhole)
    (a5 : Memref sig .tc .vmem S1x8x512 .f32) (h5 : a5.IsWhole) (hc : ¬cond1_0 i)
    (x : Vec F S2048x512 .f32) (ids : Vec F S2048x1 .i32) (M : Vec F S8x512 .f32) (acc : Vec F S1x8x512 .f32) :
    out1_B_3 c i a2 h2 a3 h3 a4 h4 a5 h5 hc x ids M acc = k1_pay2 x ids M acc := by
  unfold out1_B_3
  rw [View.read_writes_eq_canon _ _ _ (cover1_B_3 c i a2 h2 a3 h3 a4 h4 a5 h5 hc x ids M acc)]
  unfold kernelRun1_B
  dsimp only
  sl_unfold_words
  rw [View.canon_unit_zero hz3]
  simp only [View.readAt_eq_ld, h2.read_unread, h3.read_unread, h4.read_unread, h5.read_unread,
    View.ld_unit_zero (S := S2048x512) hz2, View.ld_unit_zero (S := S2048x1) hz2, View.ld_unit_zero (S := S8x512) hz2,
    View.ld_unit_zero (S := S1x8x512) hz3]

private theorem out_A (c : Dev nD) (i : grid1.Coords) (a2 : Memref sig .tc .vmem S2048x512 .f32) (h2 : a2.IsWhole)
    (a3 : Memref sig .tc .vmem S2048x1 .i32) (h3 : a3.IsWhole) (a4 : Memref sig .tc .vmem S8x512 .f32) (h4 : a4.IsWhole)
    (a5 : Memref sig .tc .vmem S1x8x512 .f32) (h5 : a5.IsWhole) (hc : cond1_0 i)
    (x : Vec F S2048x512 .f32) (ids : Vec F S2048x1 .i32) (M : Vec F S8x512 .f32) :
    out1_A_3 c i a2 h2 a3 h3 a4 h4 a5 h5 hc x ids M = k1_pay2 x ids M (k1_pay1 (F := F)) := by
  unfold out1_A_3
  rw [View.read_writes_eq_canon _ _ _ (cover1_A_3 c i a2 h2 a3 h3 a4 h4 a5 h5 hc x ids M)]
  unfold kernelRun1_A
  dsimp only
  sl_unfold_words
  rw [View.canon_cons_unit_zero (S := S1x8x512) hz3, View.readCov_unit_zero (S := S1x8x512) _ hz3]
  simp only [View.readAt_eq_ld, h2.read_unread, h3.read_unread, h4.read_unread, h5.read_unread,
    View.ld_unit_zero (S := S2048x512) hz2, View.ld_unit_zero (S := S2048x1) hz2, View.ld_unit_zero (S := S8x512) hz2,
    View.ld_unit_zero (S := S1x8x512) hz3]

end Pieces

/-! ## The payload at an index -/

/-- The mean table read back per row: row `r` of the block gets the table's row of its domain. -/
private theorem pickM_apply (ids : Vec Ideal S2048x1 .i32) (M : FVec Ideal S8x512 .f32) (r : Fin 2048) (ch : Fin 512) :
    matmul (F := Ideal) dot_S2048x8_S8x512_S2048x512_1_0_0_1_n_n (some .fp32) (onehot ids)
        (shapeCast S8x512 M shapeCasts_S8x512_S8x512) (constant S2048x512 .f32 0x00000000#32) (ix2 r ch)
      = ∑ k' : Fin 8, oh (ids (ix2 r 0)) k' * M (ix2 k' ch) :=
  (congrArg (fun T => matmul (F := Ideal) dot_S2048x8_S8x512_S2048x512_1_0_0_1_n_n (some .fp32) (onehot ids) T
      (constant S2048x512 .f32 0x00000000#32) (ix2 r ch)) (shapeCast_self M shapeCasts_S8x512_S8x512)).trans
    (pickRows512_apply ids M r ch)

private theorem rm_add (k : Fin 8) (ch : Fin 512) :
    (S8x512.rowMajor (ix2 k ch)).val = (S1x8x512.rowMajor (ix3 (0 : Fin 1) k ch)).val := by
  rw [Shape.rowMajor_val_two, Shape.rowMajor_val_three]
  show k.val * 512 + ch.val = (0 * 8 + k.val) * 512 + ch.val
  omega

/-- The second store's payload at `(0, k, ch)`: what the buffer held there, plus the block's sum over its rows of
    the indicator times the squared deviation from the row's own table row. -/
private theorem pay2_apply (x : FVec Ideal S2048x512 .f32) (ids : Vec Ideal S2048x1 .i32) (M : FVec Ideal S8x512 .f32)
    (acc : Vec Ideal S1x8x512 .f32) (k : Fin 8) (ch : Fin 512) :
    k1_pay2 (F := Ideal) x ids M acc (ix3 (0 : Fin 1) k ch)
      = acc (ix3 (0 : Fin 1) k ch) + ∑ r : Fin 2048, oh (ids (ix2 r 0)) k *
          ((x (ix2 r ch) - ∑ k' : Fin 8, oh (ids (ix2 r 0)) k' * M (ix2 k' ch))
            * (x (ix2 r ch) - ∑ k' : Fin 8, oh (ids (ix2 r 0)) k' * M (ix2 k' ch))) := by
  rw [k1_pay2_eq]
  refine (shapeCast_apply _ shapeCasts_S8x512_S1x8x512 (ix3 (0 : Fin 1) k ch) (ix2 k ch) (rm_add k ch)).trans ?_
  refine (addf_apply _ _ (ix2 k ch)).trans ?_
  refine congrArg₂ (· + ·) ?_ ?_
  · exact shapeCast_apply acc shapeCasts_S1x8x512_S8x512 (ix2 k ch) (ix3 (0 : Fin 1) k ch) (rm_add k ch).symm
  · refine (sumRows_apply ids _ k ch).trans ?_
    refine Finset.sum_congr rfl fun r _ => ?_
    refine congrArg (oh (ids (ix2 r 0)) k * ·) ?_
    refine (mulf_apply _ _ (ix2 r ch)).trans ?_
    have e := pickM_apply ids M r ch
    refine congrArg₂ (· * ·) ?_ ?_
    · exact (subf_apply _ _ (ix2 r ch)).trans (congrArg (x (ix2 r ch) - ·) e)
    · exact (subf_apply _ _ (ix2 r ch)).trans (congrArg (x (ix2 r ch) - ·) e)

/-- The first store's payload is zero everywhere. -/
private theorem pay1_apply (j : S1x8x512.Idx) : k1_pay1 (F := Ideal) j = (0 : EReal) := by
  show Ideal.ofBits .f32 0x00000000#32 = 0
  exact Ideal.ofBits_zero_f32

/-! ## The blocks a point reads, as entries of the arrays -/

/-- The point count as a bound on a point's number. -/
private theorem pt_lt (t : Fin cfg1.N) : t.val < 64 := lt_of_lt_of_eq t.isLt (show cfg1.N = 64 from N_1)

/-- The samples, the id column and the mean table as the launch finds them, at their literal types. -/
private abbrev xarr (c : Dev nD) : XArr := V c main_arg0
private abbrev darr (c : Dev nD) : DCol := V c main_v1
private abbrev marr (c : Dev nD) : Tab := V c main_v12
/-- The three input blocks of a point, at their literal types. -/
private abbrev xblk (c : Dev nD) (t : Fin cfg1.N) : FVec Ideal S2048x512 .f32 := iblk1 V c 0 t
private abbrev dblk (c : Dev nD) (t : Fin cfg1.N) : Vec Ideal S2048x1 .i32 := iblk1 V c 1 t
private abbrev mblk (c : Dev nD) (t : Fin cfg1.N) : FVec Ideal S8x512 .f32 := iblk1 V c 2 t

/-- The printed index maps over the grid: the sample and id windows are at block `(t, 0)`, the table window at
    `(0, 0)`, the result window at `(t / 32, 0, 0)`. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 32 ∧ win1_3.index t (1 : Fin 3) = 0 ∧ win1_3.index t (2 : Fin 3) = 0 :=
  (by decide +kernel : ∀ t : Fin grid1.N, _)

/-- Row `r`, channel `ch` of the samples block at point `t` is the array's row `t * 2048 + r`. -/
private theorem xblk_apply (c : Dev nD) (t : Fin cfg1.N) (r : Fin 2048) (ch : Fin 512) :
    xblk V c t (ix2 r ch) = xarr V c (ix2 (blkRow ⟨t.val, pt_lt t⟩ r) ch) := by
  obtain ⟨e0, e1, -⟩ := idx_facts t
  show V c main_arg0 (((cfg1.win 0).blk t).view.emb (ix2 r ch)) = V c main_arg0 (ix2 (blkRow ⟨t.val, pt_lt t⟩ r) ch)
  congr 1
  funext a; apply Fin.ext
  match a with
  | ⟨0, _⟩ => show win1_0.index t (0 : Fin 2) * 2048 + 1 * r.val = t.val * 2048 + r.val; rw [e0]; omega
  | ⟨1, _⟩ => show win1_0.index t (1 : Fin 2) * 512 + 1 * ch.val = ch.val; rw [e1]; omega

/-- Row `r` of the id block at point `t` is the id column's row `t * 2048 + r`. -/
private theorem dblk_apply (c : Dev nD) (t : Fin cfg1.N) (r : Fin 2048) :
    dblk V c t (ix2 r 0) = darr V c (ix2 (blkRow ⟨t.val, pt_lt t⟩ r) 0) := by
  obtain ⟨-, -, e0, e1, -⟩ := idx_facts t
  show V c main_v1 (((cfg1.win 1).blk t).view.emb (ix2 r 0)) = V c main_v1 (ix2 (blkRow ⟨t.val, pt_lt t⟩ r) 0)
  congr 1
  funext a; apply Fin.ext
  match a with
  | ⟨0, _⟩ => show win1_1.index t (0 : Fin 2) * 2048 + 1 * r.val = t.val * 2048 + r.val; rw [e0]; omega
  | ⟨1, _⟩ => show win1_1.index t (1 : Fin 2) * 1 + 1 * (0 : Fin 1).val = (0 : Fin 1).val; rw [e1]; rfl

/-- The table block is the whole table at every point. -/
private theorem mblk_apply (c : Dev nD) (t : Fin cfg1.N) (k : Fin 8) (ch : Fin 512) :
    mblk V c t (ix2 k ch) = marr V c (ix2 k ch) := by
  obtain ⟨-, -, -, -, e0, e1, -⟩ := idx_facts t
  show V c main_v12 (((cfg1.win 2).blk t).view.emb (ix2 k ch)) = V c main_v12 (ix2 k ch)
  congr 1
  funext a; apply Fin.ext
  match a with
  | ⟨0, _⟩ => show win1_2.index t (0 : Fin 2) * 8 + 1 * k.val = k.val; rw [e0]; omega
  | ⟨1, _⟩ => show win1_2.index t (1 : Fin 2) * 512 + 1 * ch.val = ch.val; rw [e1]; omega

/-! ## What the result's staging buffer holds after each point -/

/-- One row's term of domain `k`'s channel-`ch` sum of squared deviations. -/
private def sqTerm (X : XArr) (D : DCol) (M : Tab) (i : Fin 131072) (k : Fin 8) (ch : Fin 512) : EReal :=
  oh (D (ix2 i 0)) k * ((X (ix2 i ch) - pick D (fun k' => M (ix2 k' ch)) i) * (X (ix2 i ch) - pick D (fun k' => M (ix2 k' ch)) i))

/-- Block `t`'s share of that sum: over its 2048 rows (zero past the 64 blocks). -/
private def blkSq (X : XArr) (D : DCol) (M : Tab) (t : ℕ) (k : Fin 8) (ch : Fin 512) : EReal :=
  if h : t < 64 then ∑ r : Fin 2048, sqTerm X D M (blkRow ⟨t, h⟩ r) k ch else 0

/-- The sum the payload forms from point `t`'s three blocks is block `t`'s share. -/
private theorem blk_sum (c : Dev nD) (t : Fin cfg1.N) (k : Fin 8) (ch : Fin 512) :
    (∑ r : Fin 2048, oh (dblk V c t (ix2 r 0)) k *
          ((xblk V c t (ix2 r ch) - ∑ k' : Fin 8, oh (dblk V c t (ix2 r 0)) k' * mblk V c t (ix2 k' ch))
            * (xblk V c t (ix2 r ch) - ∑ k' : Fin 8, oh (dblk V c t (ix2 r 0)) k' * mblk V c t (ix2 k' ch))))
      = blkSq (xarr V c) (darr V c) (marr V c) t.val k ch := by
  unfold blkSq
  rw [dif_pos (pt_lt t)]
  refine Finset.sum_congr rfl fun r _ => ?_
  unfold sqTerm pick
  rw [xblk_apply V c t r ch, dblk_apply V c t r]
  simp only [mblk_apply V c t]

/-- At the first point of a half the buffer is zeroed and then holds that block's share. -/
private theorem step_A (c : Dev nD) (t : Fin cfg1.N) (h0 : t.val % 32 = 0) (k : Fin 8) (ch : Fin 512) :
    outsAt1 V c t.val t.isLt (ix3 (0 : Fin 1) k ch) = blkSq (xarr V c) (darr V c) (marr V c) t.val k ch := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) ((hcond1_0 t).mpr h0) (xblk V c t) (dblk V c t) (mblk V c t)) (ix3 (0 : Fin 1) k ch)).trans ?_
  refine (pay2_apply (xblk V c t) (dblk V c t) (mblk V c t) (k1_pay1 (F := Ideal)) k ch).trans ?_
  rw [pay1_apply, zero_add]
  exact blk_sum V c t k ch

/-- At every other point the buffer gains that block's share over what the point before left. -/
private theorem step_B (c : Dev nD) (t : Fin cfg1.N) (h0 : ¬t.val % 32 = 0) (k : Fin 8) (ch : Fin 512) :
    outsAt1 V c t.val t.isLt (ix3 (0 : Fin 1) k ch)
      = outsAt1 V c (t.val - 1) (Nat.lt_of_le_of_lt (Nat.sub_le _ _) t.isLt) (ix3 (0 : Fin 1) k ch)
        + blkSq (xarr V c) (darr V c) (marr V c) t.val k ch := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (xblk V c t) (dblk V c t) (mblk V c t)
    (outsAt1 V c (t.val - 1) (Nat.lt_of_le_of_lt (Nat.sub_le _ _) t.isLt))) (ix3 (0 : Fin 1) k ch)).trans ?_
  refine (pay2_apply (xblk V c t) (dblk V c t) (mblk V c t)
    (outsAt1 V c (t.val - 1) (Nat.lt_of_le_of_lt (Nat.sub_le _ _) t.isLt)) k ch).trans ?_
  exact congrArg (outsAt1 V c (t.val - 1) (Nat.lt_of_le_of_lt (Nat.sub_le _ _) t.isLt) (ix3 (0 : Fin 1) k ch) + ·)
    (blk_sum V c t k ch)

/-- So after point `32 q + j` the buffer holds the shares of blocks `32 q … 32 q + j`: by induction along the half. -/
private theorem outs_run (c : Dev nD) (k : Fin 8) (ch : Fin 512) (q : ℕ) :
    ∀ (j : ℕ) (hj : j < 32) (h : 32 * q + j < cfg1.N),
      outsAt1 V c (32 * q + j) h (ix3 (0 : Fin 1) k ch)
        = ∑ s ∈ Finset.range (j + 1), blkSq (xarr V c) (darr V c) (marr V c) (32 * q + s) k ch
  | 0, _, h => by
    rw [Finset.sum_range_one]
    exact step_A V c ⟨32 * q + 0, h⟩ (by show (32 * q + 0) % 32 = 0; omega) k ch
  | j + 1, hj, h => by
    have hB : ¬(⟨32 * q + (j + 1), h⟩ : Fin cfg1.N).val % 32 = 0 := by
      show ¬(32 * q + (j + 1)) % 32 = 0
      omega
    rw [Finset.sum_range_succ, ← outs_run c k ch q j (by omega) (by omega)]
    exact step_B V c ⟨32 * q + (j + 1), h⟩ hB k ch

/-- At the last point of a half the buffer holds the half's 32 shares. -/
private theorem outs_last (c : Dev nD) (t : Fin cfg1.N) (h31 : t.val % 32 = 31) (k : Fin 8) (ch : Fin 512) :
    outsAt1 V c t.val t.isLt (ix3 (0 : Fin 1) k ch)
      = ∑ s ∈ Finset.range 32, blkSq (xarr V c) (darr V c) (marr V c) (32 * (t.val / 32) + s) k ch := by
  have same : ∀ (u : ℕ) (hu : u < cfg1.N), u = t.val → outsAt1 V c u hu = outsAt1 V c t.val t.isLt :=
    fun u hu e => by subst e; rfl
  have e : 32 * (t.val / 32) + 31 = t.val := by omega
  rw [← same (32 * (t.val / 32) + 31) (by rw [e]; exact t.isLt) e]
  exact outs_run V c k ch (t.val / 32) 31 (by omega) _

/-! ## From the two write-backs to the result array -/

/-- The array the launch leaves: at `(p, k, ch)` half `p`'s share of domain `k`'s channel-`ch` sum of squared deviations. -/
private def sqArr (c : Dev nD) : S2x8x512.Idx → EReal := fun i =>
  partSq (xarr V c) (darr V c) (marr V c) ⟨(i 0).val, (i 0).isLt⟩ ⟨(i 1).val, (i 1).isLt⟩ ⟨(i 2).val, (i 2).isLt⟩

private theorem sqArr_ix3 (c : Dev nD) (p : Fin 2) (k : Fin 8) (ch : Fin 512) :
    sqArr V c (ix3 p k ch) = partSq (xarr V c) (darr V c) (marr V c) p k ch := rfl

/-- A half's 32 block shares are its share: block `32 p + s`'s row `r` is row `r` of block `s` of half `p`. -/
private theorem half_sum (X : XArr) (D : DCol) (M : Tab) (p : Fin 2) (k : Fin 8) (ch : Fin 512) :
    (∑ s ∈ Finset.range 32, blkSq X D M (32 * p.val + s) k ch) = partSq X D M p k ch := by
  unfold partSq
  rw [Finset.sum_range]
  refine Finset.sum_congr rfl fun s _ => ?_
  have hp := p.isLt
  have hs := s.isLt
  unfold blkSq
  rw [dif_pos (by omega)]
  refine Finset.sum_congr rfl fun r _ => ?_
  have e : blkRow ⟨32 * p.val + s.val, by omega⟩ r = rowOf p s r :=
    Fin.ext (by show (32 * p.val + s.val) * 2048 + r.val = p.val * 65536 + s.val * 2048 + r.val; omega)
  rw [e]
  rfl

/-- What a half's last point leaves in the staging buffer is that half's block of the result. -/
private theorem flushed_pt (c : Dev nD) (t : Fin cfg1.N) (h31 : t.val % 32 = 31) (y : S1x8x512.Idx) :
    outsAt1 V c t.val t.isLt y = sqArr V c (((cfg1.win 3).blk t).view.emb y) := by
  obtain ⟨a, k, ch, rfl⟩ : ∃ (a : Fin 1) (k : Fin 8) (ch : Fin 512), y = ix3 a k ch := ⟨y 0, y 1, y 2, eq_ix3 y⟩
  obtain rfl : a = 0 := Subsingleton.elim _ _
  have hN := pt_lt t
  obtain ⟨-, -, -, -, -, -, e0, e1, e2⟩ := idx_facts t
  have hemb : ((cfg1.win 3).blk t).view.emb (ix3 (0 : Fin 1) k ch) = ix3 (⟨t.val / 32, by omega⟩ : Fin 2) k ch := by
    funext a; apply Fin.ext
    match a with
    | ⟨0, _⟩ => show win1_3.index t (0 : Fin 3) * 1 + 1 * (0 : Fin 1).val = t.val / 32; rw [e0]; show t.val / 32 * 1 + 1 * 0 = t.val / 32; omega
    | ⟨1, _⟩ => show win1_3.index t (1 : Fin 3) * 8 + 1 * k.val = k.val; rw [e1]; omega
    | ⟨2, _⟩ => show win1_3.index t (2 : Fin 3) * 512 + 1 * ch.val = ch.val; rw [e2]; omega
  rw [hemb, sqArr_ix3, outs_last V c t h31 k ch]
  exact half_sum (xarr V c) (darr V c) (marr V c) ⟨t.val / 32, by omega⟩ k ch

/-- Each write-back writes its block of that array. -/
private theorem flushed_eq (c : Dev nD) (t : Fin cfg1.N) (hf : (cfg1.win 3).flush t = true) :
    (dat1 V c).flushed 3 t = ((cfg1.win 3).blk t).view.read (Elt Ideal) (sqArr V c) := by
  have h31 : t.val % 32 = 31 := (flush1_3 t).mp hf
  show (cfg1.win 3).cut (grid1.coords t) ((dat1 V c).after 3 t) = _
  rw [after1_3]
  funext y
  exact flushed_pt V c t h31 y

/-- The two write-backs, at the last point of each half, cover the array: index `(p, ·, ·)` is in point `32 p + 31`'s block. -/
private theorem final_arr (c : Dev nD) : (dat1 V c).arrAt 3 cfg1.N = sqArr V c :=
  (dat1 V c).arrAt_eq_of_cover 3 (sqArr V c) (flushed_eq V c) fun i => by
    have hp : (i 0 : Nat) < 2 := (i 0).isLt
    have hk : (i 1 : Nat) < 8 := (i 1).isLt
    have hc : (i 2 : Nat) < 512 := (i 2).isLt
    have hN : cfg1.N = 64 := N_1
    have ht : 32 * (i 0 : Nat) + 31 < cfg1.N := by omega
    refine ⟨⟨32 * (i 0 : Nat) + 31, ht⟩, (flush1_3 _).mpr (by show (32 * (i 0 : Nat) + 31) % 32 = 31; omega), ?_⟩
    obtain ⟨-, -, -, -, -, -, e0, e1, e2⟩ := idx_facts ⟨32 * (i 0 : Nat) + 31, ht⟩
    show i ∈ ((View.whole main_v13).slice (win1_3.rect ⟨32 * (i 0 : Nat) + 31, ht⟩)).set
    rw [View.set_slice_whole, Rect.mem_set_unit]
    intro a
    match a with
    | ⟨0, _⟩ =>
      show win1_3.index ⟨32 * (i 0 : Nat) + 31, ht⟩ (0 : Fin 3) * 1 ≤ (i 0 : Nat)
        ∧ (i 0 : Nat) < win1_3.index ⟨32 * (i 0 : Nat) + 31, ht⟩ (0 : Fin 3) * 1 + 1
      rw [e0]
      show (32 * (i 0 : Nat) + 31) / 32 * 1 ≤ (i 0 : Nat) ∧ (i 0 : Nat) < (32 * (i 0 : Nat) + 31) / 32 * 1 + 1
      omega
    | ⟨1, _⟩ =>
      show win1_3.index ⟨32 * (i 0 : Nat) + 31, ht⟩ (1 : Fin 3) * 8 ≤ (i 1 : Nat)
        ∧ (i 1 : Nat) < win1_3.index ⟨32 * (i 0 : Nat) + 31, ht⟩ (1 : Fin 3) * 8 + 8
      rw [e1]; omega
    | ⟨2, _⟩ =>
      show win1_3.index ⟨32 * (i 0 : Nat) + 31, ht⟩ (2 : Fin 3) * 512 ≤ (i 2 : Nat)
        ∧ (i 2 : Nat) < win1_3.index ⟨32 * (i 0 : Nat) + 31, ht⟩ (2 : Fin 3) * 512 + 512
      rw [e2]; omega

/-- After the second launch its result array holds, at half `p`, domain `k`, channel `ch`, that half's share of the
    domain's sum of squared deviations from the mean table the launch was given. -/
theorem region1_value (c : Dev nD) (p : Fin 2) (k : Fin 8) (ch : Fin 512) :
    (dat1 (F := Ideal) V c).arrAt 3 cfg1.N (ix3 p k ch) = partSq (V c main_arg0) (V c main_v1) (V c main_v12) p k ch := by
  rw [final_arr V c]
  rfl

end Cert.KernelIdeal.Val

end
-- ==== Proof.KRegion2.lean ====
/-
  The third launch (the normalisation `x · A + B`), read as values.
-/
import proofs.«411909_j73443940761618_3_alg».proof.Proof.Gen.KernelIdeal.Frame
import proofs.«411909_j73443940761618_3_alg».proof.Proof.Spec
import proofs.«411909_j73443940761618_3_alg».proof.Proof.KOneHot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.DomainNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One element of the body's payload -/

/-- A whole-block access starts at offset zero on both axes. -/
private theorem zeroOffsets : (![0, 0] : Fin 2 → Nat) = fun _ => 0 := funext fun a => by fin_cases a <;> rfl

/-- The payload at row `r` and channel `ch` of a block: the sample times the row's entry of the table's first half
    (columns `0 … 511`), plus its entry of the second half (columns `512 … 1023`), each read back through the row's
    indicator. The matmul's column `c2` is `∑ₖ [id r = k] · AB (k, c2)`; the two slices take columns `ch` and `512 + ch`. -/
private theorem payload_apply (x : FVec Ideal S2048x512 .f32) (ids : Vec Ideal S2048x1 .i32) (AB : FVec Ideal S8x1024 .f32)
    (r : Fin 2048) (ch : Fin 512) :
    k2_pay1 (F := Ideal) x ids AB (ix2 r ch)
      = x (ix2 r ch) * (∑ k : Fin 8, oh (ids (ix2 r 0)) k * AB (ix2 k ⟨ch.val, by have := ch.isLt; omega⟩))
        + ∑ k : Fin 8, oh (ids (ix2 r 0)) k * AB (ix2 k ⟨512 + ch.val, by have := ch.isLt; omega⟩) := by
  rw [k2_pay1_eq, addf_apply, mulf_apply, shapeCast_self]
  refine congrArg₂ (· + ·) (congrArg (x (ix2 r ch) * ·) ?_) ?_
  · exact (slice2_axis1_apply 0 _ _ r ch (⟨ch.val, by have := ch.isLt; omega⟩ : Fin 1024) (Nat.zero_add _).symm).trans
      (pickRows1024_apply ids AB r _)
  · exact (slice2_axis1_apply 512 _ _ r ch (⟨512 + ch.val, by have := ch.isLt; omega⟩ : Fin 1024) rfl).trans
      (pickRows1024_apply ids AB r _)

/-! ## The blocks the body reads, as entries of the whole arrays -/

/-- The four windows' block indices at every point: the samples', the id column's and the result's row block is the
    point's own number and their one column block is 0; the table's block is (0, 0) at every point. -/
private theorem blockIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A point of the launch's grid as one of the 64 row blocks. -/
private def blockOfPoint (t : Fin cfg2.N) : Fin 64 := t.cast (N_2 : cfg2.N = 64)

/-- Row `r`, channel `ch` of the samples' block at point `t` is the sample at row `2048 t + r`. -/
private theorem samples_block (c : Dev nD) (t : Fin cfg2.N) (r : Fin 2048) (ch : Fin 512) :
    (iblk2 (F := Ideal) V c 0 t : Vec Ideal S2048x512 .f32) (ix2 r ch)
      = (V c main_arg0 : S131072x512.Idx → EReal) (ix2 (blkRow (blockOfPoint t) r) ch) := by
  obtain ⟨e0, e1, -⟩ := blockIndex_facts t
  show V c main_arg0 (((cfg2.win 0).blk t).view.emb (ix2 r ch)) = V c main_arg0 (ix2 (blkRow (blockOfPoint t) r) ch)
  refine congrArg _ (funext fun a => Fin.ext ?_)
  match a with
  | ⟨0, _⟩ => show win2_0.index t (0 : Fin 2) * 2048 + 1 * r.val = t.val * 2048 + r.val; omega
  | ⟨1, _⟩ => show win2_0.index t (1 : Fin 2) * 512 + 1 * ch.val = ch.val; omega

/-- Row `r` of the id column's block at point `t` is the id of row `2048 t + r`. -/
private theorem ids_block (c : Dev nD) (t : Fin cfg2.N) (r : Fin 2048) :
    (iblk2 (F := Ideal) V c 1 t : Vec Ideal S2048x1 .i32) (ix2 r 0)
      = (V c main_v1 : S131072x1.Idx → BitVec 32) (ix2 (blkRow (blockOfPoint t) r) 0) := by
  obtain ⟨-, -, e0, e1, -⟩ := blockIndex_facts t
  show V c main_v1 (((cfg2.win 1).blk t).view.emb (ix2 r 0)) = V c main_v1 (ix2 (blkRow (blockOfPoint t) r) 0)
  refine congrArg _ (funext fun a => Fin.ext ?_)
  match a with
  | ⟨0, _⟩ => show win2_1.index t (0 : Fin 2) * 2048 + 1 * r.val = t.val * 2048 + r.val; omega
  | ⟨1, _⟩ => show win2_1.index t (1 : Fin 2) * 1 + 1 * 0 = 0; omega

/-- The table's block is the whole table at every point. -/
private theorem table_block (c : Dev nD) (t : Fin cfg2.N) (k : Fin 8) (c2 : Fin 1024) :
    (iblk2 (F := Ideal) V c 2 t : Vec Ideal S8x1024 .f32) (ix2 k c2)
      = (V c main_v30 : S8x1024.Idx → EReal) (ix2 k c2) := by
  obtain ⟨-, -, -, -, e0, e1, -⟩ := blockIndex_facts t
  show V c main_v30 (((cfg2.win 2).blk t).view.emb (ix2 k c2)) = V c main_v30 (ix2 k c2)
  refine congrArg _ (funext fun a => Fin.ext ?_)
  match a with
  | ⟨0, _⟩ => show win2_2.index t (0 : Fin 2) * 8 + 1 * k.val = k.val; omega
  | ⟨1, _⟩ => show win2_2.index t (1 : Fin 2) * 1024 + 1 * c2.val = c2.val; omega

/-! ## From the blocks to the array -/

/-- What the launch's result array ends holding: `x · A + B` at every sample and channel, of the whole arrays. -/
private def normArr (c : Dev nD) : S131072x512.Idx → EReal :=
  tab (normed (V c main_arg0) (V c main_v1) (V c main_v30))

/-- Row `r`, channel `ch` of the result's block at point `t` is entry `(2048 t + r, ch)` of the array. -/
private theorem result_block_emb (t : Fin cfg2.N) (r : Fin 2048) (ch : Fin 512) :
    ((cfg2.win 3).blk t).view.emb (ix2 r ch) = (ix2 (blkRow (blockOfPoint t) r) ch : S131072x512.Idx) := by
  obtain ⟨-, -, -, -, -, -, e0, e1⟩ := blockIndex_facts t
  refine funext fun a => Fin.ext ?_
  match a with
  | ⟨0, _⟩ => show win2_3.index t (0 : Fin 2) * 2048 + 1 * r.val = t.val * 2048 + r.val; omega
  | ⟨1, _⟩ => show win2_3.index t (1 : Fin 2) * 512 + 1 * ch.val = ch.val; omega

/-- What point `t` writes back is block `t` of `normArr`. -/
private theorem flushed_eq (c : Dev nD) (t : Fin cfg2.N) :
    (dat2 (F := Ideal) V c).flushed 3 t = ((cfg2.win 3).blk t).view.read (Elt Ideal) (normArr V c) := by
  show (cfg2.win 3).cut (grid2.coords t) ((dat2 (F := Ideal) V c).after 3 t) = _
  rw [after2_3]
  unfold out2_3
  rw [View.canon_unit_zero zeroOffsets]
  simp only [View.ld_unit_zero (S := S2048x512) zeroOffsets, View.ld_unit_zero (S := S2048x1) zeroOffsets,
    View.ld_unit_zero (S := S8x1024) zeroOffsets]
  funext j
  obtain ⟨r, ch, rfl⟩ : ∃ (r : Fin 2048) (ch : Fin 512), j = ix2 r ch := ⟨j 0, j 1, eq_ix2 j⟩
  show k2_pay1 (F := Ideal) (iblk2 V c 0 t) (iblk2 V c 1 t) (iblk2 V c 2 t) (ix2 r ch)
    = normArr V c (((cfg2.win 3).blk t).view.emb (ix2 r ch))
  refine (payload_apply (iblk2 V c 0 t) (iblk2 V c 1 t) (iblk2 V c 2 t) r ch).trans ?_
  rw [result_block_emb t r ch]
  show _ = normed (V c main_arg0) (V c main_v1) (V c main_v30) (blkRow (blockOfPoint t) r) ch
  unfold normed pick
  rw [samples_block V c t r ch, ids_block V c t r]
  simp only [table_block V c t]

/-- An entry of the array is in point `t`'s block iff each coordinate is in the block's range on its axis. -/
private theorem mem_result_block (t : Fin cfg2.N) (i : S131072x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v31).slice (win2_3.rect t)).set ↔ _
  rw [View.set_slice_whole, Rect.mem_set_unit]
  exact Iff.rfl

/-- Every entry of the array is in some point's block: row `i` is in block `i / 2048`. -/
private theorem result_cover (i : S131072x512.Idx) :
    ∃ t : Fin cfg2.N, (cfg2.win 3).flush t = true ∧ i ∈ ((cfg2.win 3).blk t).view.set := by
  have hi0 : (i 0).val < 131072 := idx2_lt0 i
  have hi1 : (i 1).val < 512 := idx2_lt1 i
  have hN : cfg2.N = 64 := N_2
  let t : Fin cfg2.N := ⟨(i 0).val / 2048, by rw [hN]; omega⟩
  obtain ⟨-, -, -, -, -, -, e0, e1⟩ := blockIndex_facts t
  have q0 : win2_3.index t (0 : Fin 2) = (i 0).val / 2048 := e0
  refine ⟨t, flush2_3 t, ?_⟩
  rw [mem_result_block]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 512 ≤ (i 1).val ∧ (i 1).val < win2_3.index t (1 : Fin 2) * 512 + 512; omega

/-- The result array after the launch's 64 points is `normArr`. -/
private theorem result_array (c : Dev nD) : (dat2 (F := Ideal) V c).arrAt 3 cfg2.N = normArr V c :=
  (dat2 (F := Ideal) V c).arrAt_eq_of_cover 3 (normArr V c) (fun t _ => flushed_eq V c t) result_cover

/-- After the third launch its result array holds, at sample `i` and channel `ch`, `x · A + B` with the sample's rows of
    the double table the launch was given. -/
theorem region2_value (c : Dev nD) (i : Fin 131072) (ch : Fin 512) :
    (dat2 (F := Ideal) V c).arrAt 3 cfg2.N (ix2 i ch) = normed (V c main_arg0) (V c main_v1) (V c main_v30) i ch := by
  rw [result_array V c]
  rfl

end Cert.KernelIdeal.Val

end
-- ==== Proof.KHost.lean ====
/-
  The kernel program's host operations between its three launches, threaded through the run's boundary contents: the
  result array ends at the blocked arrangement `kerOut` of the four arguments.
-/
import proofs.«411909_j73443940761618_3_alg».proof.Proof.KHostA
import proofs.«411909_j73443940761618_3_alg».proof.Proof.KRegion1
import proofs.«411909_j73443940761618_3_alg».proof.Proof.KRegion2
import Idealize.ShloMosaic.Lib.StableHlo.Run
import Idealize.ShloMosaic.Lib.Pipeline.Value
import Idealize.ShloMosaic.Lib.IdealHost

set_option maxRecDepth 16384

noncomputable section

namespace Cert.KernelIdeal.Val

open Cert.KernelIdeal Cert.KernelIdeal.Gen Cert.DomainNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The operations between the second and the third launch, one at a time

Over any contents `Wv` of the buffers when the stretch starts, each buffer the stretch writes holds its operation's
function of its operands' contents once the stretch has run; a buffer it does not write holds what it held. -/

section Stretch
variable (Wv : Valuation τ sig (Elt Ideal))

local notation "Aft" => StableHlo.after (hostOps2 (F := Ideal)) Wv

private theorem s2_v13 : Aft (Proc.devRef .tc main_v13) = Wv (Proc.devRef .tc main_v13) := by after_results_simp
private theorem s2_v5 : Aft (Proc.devRef .tc main_v5) = Wv (Proc.devRef .tc main_v5) := by after_results_simp
private theorem s2_v12 : Aft (Proc.devRef .tc main_v12) = Wv (Proc.devRef .tc main_v12) := by after_results_simp
private theorem s2_arg2 : Aft (Proc.devRef .tc main_arg2) = Wv (Proc.devRef .tc main_arg2) := by after_results_simp
private theorem s2_arg3 : Aft (Proc.devRef .tc main_arg3) = Wv (Proc.devRef .tc main_arg3) := by after_results_simp
private theorem s2_arg0 : Aft (Proc.devRef .tc main_arg0) = Wv (Proc.devRef .tc main_arg0) := by after_results_simp
private theorem s2_v1 : Aft (Proc.devRef .tc main_v1) = Wv (Proc.devRef .tc main_v1) := by after_results_simp

/-- The two halves' sums of squares added: a reduction over the leading axis from zero. -/
private theorem s2_v14 : @Eq (FVec Ideal S8x512 FTy.f32) (Aft (Proc.devRef .tc main_v14))
    (Host.reduceAdd (F := Ideal) (Wv (Proc.devRef .tc main_v13)) (constant (F := Ideal) S_ .f32 0x00000000#32)
        reducesTo_S2x8x512_S8x512_d0 h_S_) := by after_results_simp

/-- The variance's divisor: the count less one, kept at least one. -/
private theorem s2_v18 : @Eq (FVec Ideal S8 FTy.f32) (Aft (Proc.devRef .tc main_v18))
    (maximumf (subf (Wv (Proc.devRef .tc main_v5)) (broadcastInDim S8 ![] bcast_S_S8 (constant (F := Ideal) S_ .f32 0x3F800000#32)))
        (broadcastInDim S8 ![] bcast_S_S8 (constant (F := Ideal) S_ .f32 0x3F800000#32))) := by after_results_simp

/-- The divisor laid along the channels. -/
private theorem s2_v20 : @Eq (FVec Ideal S8x512 FTy.f32) (Aft (Proc.devRef .tc main_v20))
    (broadcastInDim S8x512 ![0, 1] bcast_S8x1_S8x512_0_1
        (broadcastInDim S8x1 ![0] bcast_S8_S8x1_0 (Aft (Proc.devRef .tc main_v18)))) := by after_results_simp

/-- The variance. -/
private theorem s2_v21 : @Eq (FVec Ideal S8x512 FTy.f32) (Aft (Proc.devRef .tc main_v21))
    (Host.divf (F := Ideal) (Aft (Proc.devRef .tc main_v14)) (Aft (Proc.devRef .tc main_v20))) := by after_results_simp

/-- The variance and its guard. -/
private theorem s2_v23 : @Eq (FVec Ideal S8x512 FTy.f32) (Aft (Proc.devRef .tc main_v23))
    (addf (Aft (Proc.devRef .tc main_v21))
        (broadcastInDim S8x512 ![] bcast_S_S8x512 (constant (F := Ideal) S_ .f32 0x3727C5AC#32))) := by after_results_simp

/-- Its reciprocal square root. -/
private theorem s2_v24 : @Eq (FVec Ideal S8x512 FTy.f32) (Aft (Proc.devRef .tc main_v24))
    (Host.rsqrt (F := Ideal) (Aft (Proc.devRef .tc main_v23))) := by after_results_simp

/-- The scale: that times the affine `std` row, laid along the domains. -/
private theorem s2_v26 : @Eq (FVec Ideal S8x512 FTy.f32) (Aft (Proc.devRef .tc main_v26))
    (mulf (Aft (Proc.devRef .tc main_v24))
        (broadcastInDim S8x512 ![0, 1] bcast_S1x512_S8x512_0_1 (Wv (Proc.devRef .tc main_arg3)))) := by after_results_simp

/-- The shift: the affine `mean` row less the mean table times the scale. -/
private theorem s2_v29 : @Eq (FVec Ideal S8x512 FTy.f32) (Aft (Proc.devRef .tc main_v29))
    (subf (broadcastInDim S8x512 ![0, 1] bcast_S1x512_S8x512_0_1 (Wv (Proc.devRef .tc main_arg2)))
        (mulf (Wv (Proc.devRef .tc main_v12)) (Aft (Proc.devRef .tc main_v26)))) := by after_results_simp

end Stretch

/-! ## The same, read at an index

The buffers the stretch reads are named as arrays of extended reals: `Qv` the two halves' sums of squared deviations,
`Nv` the counts, `Muv` the mean table, `Mnv` and `Sv` the affine `mean` and `std` rows. -/

section Reads
variable (Wv : Valuation τ sig (Elt Ideal))

local notation "Aft" => StableHlo.after (hostOps2 (F := Ideal)) Wv

/-- The index a reduction over the leading axis of [2, 8, 512] sums at: the half `p` put in front of (k, ch). -/
private theorem lift_lead (h : S2x8x512.Reduces [0] S8x512) (k : Fin 8) (ch : Fin 512) (p : Fin 2) :
    h.lift (ix2 k ch) p = ix3 p k ch := by
  funext a
  match a with
  | ⟨0, _⟩ => rfl
  | ⟨1, _⟩ => rfl
  | ⟨2, _⟩ => rfl

/-- A [1, 512] row laid along the eight domains reads the row's entry of the channel. -/
private theorem bcast_row_apply (R : FVec Ideal S1x512 FTy.f32) (k : Fin 8) (ch : Fin 512) :
    broadcastInDim S8x512 ![0, 1] bcast_S1x512_S8x512_0_1 R (ix2 k ch) = R (ix2 0 ch) :=
  broadcastInDim_apply _ _ R (ix2 k ch) (ix2 0 ch) (fun a => by
    match a with
    | ⟨0, _⟩ => rfl
    | ⟨1, _⟩ => rfl)

/-- A vector of eight laid as a column and then along the 512 channels reads the vector's entry of the domain. -/
private theorem bcast_col_apply (v : FVec Ideal S8 FTy.f32) (k : Fin 8) (ch : Fin 512) :
    broadcastInDim S8x512 ![0, 1] bcast_S8x1_S8x512_0_1 (broadcastInDim S8x1 ![0] bcast_S8_S8x1_0 v) (ix2 k ch) = v (ix1 k) := by
  refine (broadcastInDim_apply (s := S8x1) (t := S8x512) _ _ _ (ix2 k ch) (ix2 k (0 : Fin 1)) (fun a => by
    match a with
    | ⟨0, _⟩ => rfl
    | ⟨1, _⟩ => rfl)).trans ?_
  exact broadcastInDim_apply (s := S8) (t := S8x1) _ _ _ (ix2 k (0 : Fin 1)) (ix1 k) (fun a => by
    match a with
    | ⟨0, _⟩ => rfl)

/-- The sum of squares: the two halves added (from zero). -/
private theorem p2_v14 (Qv : FVec Ideal S2x8x512 FTy.f32) (hQ : Wv (Proc.devRef .tc main_v13) = Qv) (k : Fin 8) (ch : Fin 512) :
    (Aft (Proc.devRef .tc main_v14) : FVec Ideal S8x512 FTy.f32) (ix2 k ch) = Qv (ix3 0 k ch) + Qv (ix3 1 k ch) := by
  have hr : S2x8x512.Reduces [0] S8x512 := by decide
  rw [s2_v14, hQ]
  refine (Ideal.hostReduceAdd_single reducesTo_S2x8x512_S8x512_d0 hr Qv _ (ix2 k ch)).trans ?_
  show Ideal.ofBits .f32 0x00000000#32 + ∑ p : Fin 2, Qv (hr.lift (ix2 k ch) p) = _
  rw [Ideal.ofBits_zero_f32, zero_add, Fin.sum_univ_two, lift_lead, lift_lead]

/-- The variance's divisor at (k, ch): domain `k`'s count less one, kept at least one. -/
private theorem p2_v20 (Nv : FVec Ideal S8 FTy.f32) (hN : Wv (Proc.devRef .tc main_v5) = Nv) (k : Fin 8) (ch : Fin 512) :
    (Aft (Proc.devRef .tc main_v20) : FVec Ideal S8x512 FTy.f32) (ix2 k ch) = max (Nv (ix1 k) - 1) 1 := by
  rw [s2_v20, s2_v18, hN, bcast_col_apply]
  show max (Nv (ix1 k) - Ideal.ofBits .f32 0x3F800000#32) (Ideal.ofBits .f32 0x3F800000#32) = _
  rw [Ideal.ofBits_one_f32]

/-- The reciprocal square root of the guarded variance at (k, ch). -/
private theorem p2_v24 (Qv : FVec Ideal S2x8x512 FTy.f32) (hQ : Wv (Proc.devRef .tc main_v13) = Qv) (Nv : FVec Ideal S8 FTy.f32) (hN : Wv (Proc.devRef .tc main_v5) = Nv) (k : Fin 8) (ch : Fin 512) :
    (Aft (Proc.devRef .tc main_v24) : FVec Ideal S8x512 FTy.f32) (ix2 k ch)
      = Ideal.rsqrt (Ideal.div (Qv (ix3 0 k ch) + Qv (ix3 1 k ch)) (max (Nv (ix1 k) - 1) 1) + eps) := by
  rw [s2_v24, s2_v23, s2_v21]
  show Ideal.rsqrt (Ideal.div ((Aft (Proc.devRef .tc main_v14) : FVec Ideal S8x512 FTy.f32) (ix2 k ch))
      ((Aft (Proc.devRef .tc main_v20) : FVec Ideal S8x512 FTy.f32) (ix2 k ch)) + Ideal.ofBits .f32 0x3727C5AC#32) = _
  rw [p2_v14 Wv Qv hQ, p2_v20 Wv Nv hN]
  rfl

/-- The scale at (k, ch). -/
private theorem p2_v26 (Qv : FVec Ideal S2x8x512 FTy.f32) (hQ : Wv (Proc.devRef .tc main_v13) = Qv) (Nv : FVec Ideal S8 FTy.f32) (hN : Wv (Proc.devRef .tc main_v5) = Nv) (Sv : FVec Ideal S1x512 FTy.f32) (hS : Wv (Proc.devRef .tc main_arg3) = Sv) (k : Fin 8) (ch : Fin 512) :
    (Aft (Proc.devRef .tc main_v26) : FVec Ideal S8x512 FTy.f32) (ix2 k ch)
      = Ideal.rsqrt (Ideal.div (Qv (ix3 0 k ch) + Qv (ix3 1 k ch)) (max (Nv (ix1 k) - 1) 1) + eps) * Sv (ix2 0 ch) := by
  rw [s2_v26, hS, mulf_apply, p2_v24 Wv Qv hQ Nv hN, bcast_row_apply]

/-- The shift at (k, ch). -/
private theorem p2_v29 (Qv : FVec Ideal S2x8x512 FTy.f32) (hQ : Wv (Proc.devRef .tc main_v13) = Qv) (Nv : FVec Ideal S8 FTy.f32) (hN : Wv (Proc.devRef .tc main_v5) = Nv) (Sv : FVec Ideal S1x512 FTy.f32) (hS : Wv (Proc.devRef .tc main_arg3) = Sv) (Mnv : FVec Ideal S1x512 FTy.f32) (hMn : Wv (Proc.devRef .tc main_arg2) = Mnv) (Muv : FVec Ideal S8x512 FTy.f32) (hMu : Wv (Proc.devRef .tc main_v12) = Muv) (k : Fin 8) (ch : Fin 512) :
    (Aft (Proc.devRef .tc main_v29) : FVec Ideal S8x512 FTy.f32) (ix2 k ch)
      = Mnv (ix2 0 ch) - Muv (ix2 k ch)
          * (Ideal.rsqrt (Ideal.div (Qv (ix3 0 k ch) + Qv (ix3 1 k ch)) (max (Nv (ix1 k) - 1) 1) + eps) * Sv (ix2 0 ch)) := by
  rw [s2_v29, hMn, hMu, subf_apply, mulf_apply, p2_v26 Wv Qv hQ Nv hN Sv hS, bcast_row_apply]

/-- The double table's left half is the scale … -/
private theorem p2_v30_left (k : Fin 8) (c2 : Fin 1024) (h : c2.val < 512) :
    (Aft (Proc.devRef .tc main_v30) : FVec Ideal S8x1024 FTy.f32) (ix2 k c2)
      = (Aft (Proc.devRef .tc main_v26) : FVec Ideal S8x512 FTy.f32) (ix2 k ⟨c2.val, h⟩) := by
  after_results_simp
  exact concatenate_pair_apply_left (t := S8x1024) (s₁ := S8x512) (s₂ := S8x512) (1 : Fin 2) _ _ _ (ix2 k c2) rfl
    (ix2 k ⟨c2.val, h⟩) (fun b => by
      match b with
      | ⟨0, _⟩ => rfl
      | ⟨1, _⟩ => rfl)

/-- … and its right half the shift. -/
private theorem p2_v30_right (k : Fin 8) (c2 : Fin 1024) (h : ¬ c2.val < 512) :
    (Aft (Proc.devRef .tc main_v30) : FVec Ideal S8x1024 FTy.f32) (ix2 k c2)
      = (Aft (Proc.devRef .tc main_v29) : FVec Ideal S8x512 FTy.f32) (ix2 k ⟨c2.val - 512, by have := c2.isLt; omega⟩) := by
  after_results_simp
  refine concatenate_pair_apply_right (t := S8x1024) (s₁ := S8x512) (s₂ := S8x512) (1 : Fin 2) _ _ _ (ix2 k c2) rfl rfl
    (ix2 k ⟨c2.val - 512, by have := c2.isLt; omega⟩) (fun b hb => by
      match b with
      | ⟨0, _⟩ => rfl
      | ⟨1, _⟩ => exact absurd rfl hb) ?_
  show (c2.val - 512) + 512 = c2.val
  omega

end Reads

/-! ## What the second launch leaves, read where the stretch reads it

The second launch writes only its result, the two halves' sums of squared deviations; its inputs and every buffer it
does not touch hold what they held when it was entered. -/

section Frame

/-- The second launch's result: half `p`'s sum of squared deviations from the guarded mean. -/
private theorem r6_v13 (c : Dev nD) (hd : ∀ i : Fin 131072, ((m ((c.tc : Thread nD τ).loc main_arg1) : DVec) (ix1 i)).toNat < 8)
    (p : Fin 2) (k : Fin 8) (ch : Fin 512) :
    W6 (F := Ideal) m ρ c (Proc.devRef .tc main_v13) (ix3 p k ch)
      = partSq (m ((c.tc : Thread nD τ).loc main_arg0)) (dcol (m ((c.tc : Thread nD τ).loc main_arg1)))
          (tab (kMean (m ((c.tc : Thread nD τ).loc main_arg0)) (m ((c.tc : Thread nD τ).loc main_arg1)))) p k ch := by
  refine (congrFun (W6_arr m ρ c 3) (ix3 p k ch)).trans ((region1_value (V5 m ρ) c p k ch).trans ?_)
  rw [V5_arg0 m ρ c, V5_v1 m ρ c hd, V5_v12 m ρ c hd]

/-- The counts pass the second launch untouched. -/
private theorem r6_v5 (c : Dev nD) (hd : ∀ i : Fin 131072, ((m ((c.tc : Thread nD τ).loc main_arg1) : DVec) (ix1 i)).toNat < 8)
    (k : Fin 8) :
    W6 (F := Ideal) m ρ c (Proc.devRef .tc main_v5) (ix1 k) = cnt (m ((c.tc : Thread nD τ).loc main_arg1)) k :=
  (congrFun (W6_of_ne m ρ c main_v5 (by decide)) (ix1 k)).trans (V5_v5 m ρ c hd k)

/-- The mean table is an input of the second launch: it leaves it as entered. -/
private theorem r6_v12 (c : Dev nD) (hd : ∀ i : Fin 131072, ((m ((c.tc : Thread nD τ).loc main_arg1) : DVec) (ix1 i)).toNat < 8) :
    (W6 (F := Ideal) m ρ c (Proc.devRef .tc main_v12) : Tab)
      = tab (kMean (m ((c.tc : Thread nD τ).loc main_arg0)) (m ((c.tc : Thread nD τ).loc main_arg1))) :=
  ((W6_arr m ρ c 2).trans (((dat1 (V5 m ρ) c).arrAt_in 2 rfl _).trans (A_eq1 (V5 m ρ) c 2))).trans (V5_v12 m ρ c hd)

/-- The affine `mean` row is as launched: nothing from the second launch's exit to the run's end writes it, and it
    ends as launched. -/
private theorem r6_arg2 (c : Dev nD) :
    W6 (F := Ideal) m ρ c (Proc.devRef .tc main_arg2) = m ((c.tc : Thread nD τ).loc main_arg2) :=
  ((s2_arg2 (W6 m ρ c)).symm.trans (W8_of_ne m ρ c main_arg2 (by decide)).symm).trans (W8_main_arg2 m ρ c)

/-- So is the affine `std` row. -/
private theorem r6_arg3 (c : Dev nD) :
    W6 (F := Ideal) m ρ c (Proc.devRef .tc main_arg3) = m ((c.tc : Thread nD τ).loc main_arg3) :=
  ((s2_arg3 (W6 m ρ c)).symm.trans (W8_of_ne m ρ c main_arg3 (by decide)).symm).trans (W8_main_arg3 m ρ c)

end Frame

/-- The samples reach the third launch as launched. -/
theorem V7_arg0 (c : Dev nD) : V7 (F := Ideal) m ρ c main_arg0 = m ((c.tc : Thread nD τ).loc main_arg0) :=
  ((s2_arg0 (W6 m ρ c)).trans
    ((W6_arr m ρ c 0).trans (((dat1 (V5 m ρ) c).arrAt_in 0 rfl _).trans (A_eq1 (V5 m ρ) c 0)))).trans (V5_arg0 m ρ c)

/-- So does the id column. -/
theorem V7_v1 (c : Dev nD) (hd : ∀ i : Fin 131072, ((m ((c.tc : Thread nD τ).loc main_arg1) : DVec) (ix1 i)).toNat < 8) :
    (V7 (F := Ideal) m ρ c main_v1 : DCol) = dcol (m ((c.tc : Thread nD τ).loc main_arg1)) :=
  ((s2_v1 (W6 m ρ c)).trans
    ((W6_arr m ρ c 1).trans (((dat1 (V5 m ρ) c).arrAt_in 1 rfl _).trans (A_eq1 (V5 m ρ) c 1)))).trans (V5_v1 m ρ c hd)

/-- The double table the third launch is given: the scale `A` beside the shift `B`. -/
theorem V7_v30 (c : Dev nD) (hd : ∀ i : Fin 131072, ((m ((c.tc : Thread nD τ).loc main_arg1) : DVec) (ix1 i)).toNat < 8) :
    (V7 (F := Ideal) m ρ c main_v30 : Tab2)
      = kAB (m ((c.tc : Thread nD τ).loc main_arg0)) (m ((c.tc : Thread nD τ).loc main_arg1))
          (m ((c.tc : Thread nD τ).loc main_arg2)) (m ((c.tc : Thread nD τ).loc main_arg3)) := by
  funext j
  obtain ⟨k, c2, rfl⟩ : ∃ (k : Fin 8) (c2 : Fin 1024), j = ix2 k c2 := ⟨j 0, j 1, eq_ix2 j⟩
  show _ = (if h : c2.val < 512 then kA _ _ _ k ⟨c2.val, h⟩ else kB _ _ _ _ k ⟨c2.val - 512, _⟩)
  by_cases h : c2.val < 512
  · rw [dif_pos h]
    refine (p2_v30_left (W6 m ρ c) k c2 h).trans ((p2_v26 (W6 m ρ c) _ rfl _ rfl _ rfl k ⟨c2.val, h⟩).trans ?_)
    rw [r6_v13 m ρ c hd, r6_v13 m ρ c hd, r6_v5 m ρ c hd, r6_arg3 m ρ c]
    rfl
  · rw [dif_neg h]
    refine (p2_v30_right (W6 m ρ c) k c2 h).trans ((p2_v29 (W6 m ρ c) _ rfl _ rfl _ rfl _ rfl _ rfl k _).trans ?_)
    rw [r6_v13 m ρ c hd, r6_v13 m ρ c hd, r6_v5 m ρ c hd, r6_arg3 m ρ c, r6_arg2 m ρ c, r6_v12 m ρ c hd]
    rfl

/-- The last boundary's contents of the result array, where every domain id is one of the eight. -/
theorem kernel_value (c : Dev nD)
    (hd : ∀ i : Fin 131072, ((m ((c.tc : Thread nD τ).loc main_arg1) : DVec) (ix1 i)).toNat < 8)
    (i : Fin 131072) (ch : Fin 512) :
    W8 (F := Ideal) m ρ c (Proc.devRef .tc main_v31) (ix2 i ch)
      = kerOut (m ((c.tc : Thread nD τ).loc main_arg0)) (m ((c.tc : Thread nD τ).loc main_arg1))
          (m ((c.tc : Thread nD τ).loc main_arg2)) (m ((c.tc : Thread nD τ).loc main_arg3)) i ch := by
  have h8 : W8 (F := Ideal) m ρ c (Proc.devRef .tc main_v31) = (dat2 (V7 m ρ) c).arrAt 3 cfg2.N := W8_arr m ρ c 3
  rw [h8, region2_value (V7 m ρ) c i ch, V7_arg0 m ρ c, V7_v1 m ρ c hd, V7_v30 m ρ c hd]
  rfl

end Cert.KernelIdeal.Val

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.RefValue.lean ====
/-
  The reference program's result, read stage by stage: the direct arrangement `refOut` of the four arguments.

  The program forms, per domain `k` and channel `c`: the count of the domain's samples (a scatter-add of ones by the
  domain ids), the sum of its samples (a scatter-add of the sample rows), their quotient the mean, each sample's
  deviation from its own domain's mean (a gather of the mean table's rows by the ids), the sum of the squared deviations
  (a third scatter-add), the unbiased variance, and last the normalised, scaled and shifted sample. Every lemma below
  reads one of these stages at an index with explicit coordinates. Where every id is one of the eight, an id reads the
  same signed and unsigned: a scatter-add's selection "the id is `k`" is multiplication by the 0/1 indicator, the wrap of
  a negative id leaves the id alone, and a gather by the id reads the table's row `dom`.
-/
import proofs.«411909_j73443940761618_3_alg».proof.Proof.Gen.ReferenceIdeal.Read
import proofs.«411909_j73443940761618_3_alg».proof.Proof.Spec
import proofs.«411909_j73443940761618_3_alg».proof.Proof.LibGatherScatterRows
import proofs.«411909_j73443940761618_3_alg».proof.Proof.LibScatterVec
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Predicate

set_option maxRecDepth 16384

noncomputable section

namespace Cert.ReferenceIdeal.RefValue

open Cert.ReferenceIdeal Cert.ReferenceIdeal.Gen Cert.DomainNorm
open Idealize.ShloMosaic Idealize.ShloMosaic.TcCoe Idealize.ShloMosaic.ValueIdx Idealize.SL.Sem

/-! ## Words: an id that is one of the eight -/

/-- An id below eight reads the same signed and unsigned, so as an integer it is `k` exactly when it is as a natural. -/
private theorem toInt_eq_iff {w : BitVec 32} (hw : w.toNat < 8) (k : Fin 8) :
    w.toInt = (k.val : Int) ↔ w.toNat = k.val := by
  rw [StableHlo.Predicate.toInt_eq_toNat_of_lt (by omega)]
  omega

/-- Selecting a term by "the id is `k`" is multiplying it by the indicator: `1 * u = u` and `0 * u = 0` for every
    extended real `u`. -/
private theorem ite_toInt_eq {w : BitVec 32} (hw : w.toNat < 8) (k : Fin 8) (u : EReal) :
    (if w.toInt = (k.val : Int) then u else 0) = oh w k * u := by
  unfold oh
  by_cases h : w.toNat = k.val
  · rw [if_pos ((toInt_eq_iff hw k).2 h), if_pos h, one_mul]
  · rw [if_neg (fun h' => h ((toInt_eq_iff hw k).1 h')), if_neg h, zero_mul]

/-- An id below eight is not negative, so the wrap "`d + 8` if `d < 0`, else `d`" returns it. -/
private theorem wrap_eq {w : BitVec 32} (hw : w.toNat < 8) (a : BitVec 32) :
    Scalar.select (IntOp.cmpi .slt w 0#32) a w = w := by
  have h : IntOp.cmpi .slt w 0#32 = 0#1 :=
    eq_zero_of_ne_one fun h1 =>
      Nat.not_lt_zero _ ((StableHlo.Predicate.slt_iff_toNat (a := w) (b := 0#32) (by omega) (by decide)).1 h1)
  rw [h, select_zero]

/-- An id below eight, read as a signed integer, is the domain `dom` sends it to. -/
private theorem dom_toInt (x1 : DVec) (hd : ∀ i : Fin 131072, (x1 (ix1 i)).toNat < 8) (i : Fin 131072) :
    (x1 (ix1 i)).toInt = ((dom x1 i).val : Int) := by
  rw [StableHlo.Predicate.toInt_eq_toNat_of_lt (by have := hd i; omega)]
  show ((x1 (ix1 i)).toNat : Int) = (((x1 (ix1 i)).toNat % 8 : Nat) : Int)
  rw [Nat.mod_eq_of_lt (hd i)]

/-! ## Layout stages at explicit coordinates -/

/-- The ids as a column (first copy): entry `(i, 0)` is sample `i`'s id. -/
private theorem v4_at (x1 : DVec) (i : Fin 131072) (z : Fin 1) :
    Read.val_main_v4 (F := Ideal) x1 (ix2 i z) = x1 (ix1 i) :=
  (Read.val_main_v4_apply x1 (ix2 i z)).trans
    (congrArg x1 (funext fun a => Fin.ext (by match a with | ⟨0, _⟩ => rfl)))

/-- The ids as a column (second copy). -/
private theorem v7_at (x1 : DVec) (i : Fin 131072) (z : Fin 1) :
    Read.val_main_v7 (F := Ideal) x1 (ix2 i z) = x1 (ix1 i) :=
  (Read.val_main_v7_apply x1 (ix2 i z)).trans
    (congrArg x1 (funext fun a => Fin.ext (by match a with | ⟨0, _⟩ => rfl)))

/-- The ids as a column (third copy). -/
private theorem v22_at (x1 : DVec) (i : Fin 131072) (z : Fin 1) :
    Read.val_main_v22 (F := Ideal) x1 (ix2 i z) = x1 (ix1 i) :=
  (Read.val_main_v22_apply x1 (ix2 i z)).trans
    (congrArg x1 (funext fun a => Fin.ext (by match a with | ⟨0, _⟩ => rfl)))

/-- The wrapped ids as a column, for the gather of the means: entry `(i, 0)` is sample `i`'s wrapped id. -/
private theorem v17_at (x1 : DVec) (i : Fin 131072) (z : Fin 1) :
    Read.val_main_v17 (F := Ideal) x1 (ix2 i z) = Read.val_main_v16 (F := Ideal) x1 (ix1 i) :=
  (Read.val_main_v17_apply x1 (ix2 i z)).trans
    (congrArg (Read.val_main_v16 (F := Ideal) x1) (funext fun a => Fin.ext (by match a with | ⟨0, _⟩ => rfl)))

/-- The wrapped ids as a column, for the gather of the variances. -/
private theorem v36_at (x1 : DVec) (i : Fin 131072) (z : Fin 1) :
    Read.val_main_v36 (F := Ideal) x1 (ix2 i z) = Read.val_main_v35 (F := Ideal) x1 (ix1 i) :=
  (Read.val_main_v36_apply x1 (ix2 i z)).trans
    (congrArg (Read.val_main_v35 (F := Ideal) x1) (funext fun a => Fin.ext (by match a with | ⟨0, _⟩ => rfl)))

/-- The counts as a column: entry `(k, 0)` is domain `k`'s count. -/
private theorem v9_at (x1 : DVec) (k : Fin 8) (z : Fin 1) :
    Read.val_main_v9 (F := Ideal) x1 (ix2 k z) = Read.val_main_v5 (F := Ideal) x1 (ix1 k) :=
  (Read.val_main_v9_apply x1 (ix2 k z)).trans
    (congrArg (Read.val_main_v5 (F := Ideal) x1) (funext fun a => Fin.ext (by match a with | ⟨0, _⟩ => rfl)))

/-- The counts spread along the channels: entry `(k, c)` is the column's entry `(k, 0)`. -/
private theorem v10_at (x1 : DVec) (k : Fin 8) (c : Fin 512) :
    Read.val_main_v10 (F := Ideal) x1 (ix2 k c) = Read.val_main_v9 (F := Ideal) x1 (ix2 k 0) :=
  (Read.val_main_v10_apply x1 (ix2 k c)).trans
    (congrArg (Read.val_main_v9 (F := Ideal) x1)
      (funext fun a => Fin.ext (by match a with | ⟨0, _⟩ => rfl | ⟨1, _⟩ => rfl)))

/-- The variance's divisors as a column. -/
private theorem v28_at (x1 : DVec) (k : Fin 8) (z : Fin 1) :
    Read.val_main_v28 (F := Ideal) x1 (ix2 k z) = Read.val_main_v27 (F := Ideal) x1 (ix1 k) :=
  (Read.val_main_v28_apply x1 (ix2 k z)).trans
    (congrArg (Read.val_main_v27 (F := Ideal) x1) (funext fun a => Fin.ext (by match a with | ⟨0, _⟩ => rfl)))

/-- The variance's divisors spread along the channels. -/
private theorem v29_at (x1 : DVec) (k : Fin 8) (c : Fin 512) :
    Read.val_main_v29 (F := Ideal) x1 (ix2 k c) = Read.val_main_v28 (F := Ideal) x1 (ix2 k 0) :=
  (Read.val_main_v29_apply x1 (ix2 k c)).trans
    (congrArg (Read.val_main_v28 (F := Ideal) x1)
      (funext fun a => Fin.ext (by match a with | ⟨0, _⟩ => rfl | ⟨1, _⟩ => rfl)))

/-- The affine scale row spread over the samples: entry `(i, c)` is the row's entry `(0, c)`. -/
private theorem v42_at (x3 : Par) (i : Fin 131072) (c : Fin 512) :
    Read.val_main_v42 (F := Ideal) x3 (ix2 i c) = x3 (ix2 0 c) :=
  (Read.val_main_v42_apply (F := Ideal) x3 (ix2 i c)).trans
    (congrArg x3 (funext fun a => Fin.ext (by match a with | ⟨0, _⟩ => rfl | ⟨1, _⟩ => rfl)))

/-- The affine shift row spread over the samples. -/
private theorem v44_at (x2 : Par) (i : Fin 131072) (c : Fin 512) :
    Read.val_main_v44 (F := Ideal) x2 (ix2 i c) = x2 (ix2 0 c) :=
  (Read.val_main_v44_apply (F := Ideal) x2 (ix2 i c)).trans
    (congrArg x2 (funext fun a => Fin.ext (by match a with | ⟨0, _⟩ => rfl | ⟨1, _⟩ => rfl)))

/-! ## The constants: the zero word is 0, the word of one is 1, the guard's word is `eps` -/

/-- The ones the counts add up. -/
private theorem v2_at (j : S131072.Idx) : Read.val_main_v2 (F := Ideal) j = 1 :=
  ((Read.val_main_v2_apply j).trans (Read.val_main_cst_apply _)).trans Ideal.ofBits_one_f32

/-- The zeros the counts start from. -/
private theorem v3_at (j : S8.Idx) : Read.val_main_v3 (F := Ideal) j = 0 :=
  ((Read.val_main_v3_apply j).trans (Read.val_main_cst_0_apply _)).trans Ideal.ofBits_zero_f32

/-- The zeros the sums start from. -/
private theorem v6_at (j : S8x512.Idx) : Read.val_main_v6 (F := Ideal) j = 0 :=
  ((Read.val_main_v6_apply j).trans (Read.val_main_cst_1_apply _)).trans Ideal.ofBits_zero_f32

/-- The zeros the sums of squares start from. -/
private theorem v21_at (j : S8x512.Idx) : Read.val_main_v21 (F := Ideal) j = 0 :=
  ((Read.val_main_v21_apply j).trans (Read.val_main_cst_3_apply _)).trans Ideal.ofBits_zero_f32

/-- The one taken off a count. -/
private theorem v24_at (j : S8.Idx) : Read.val_main_v24 (F := Ideal) j = 1 :=
  ((Read.val_main_v24_apply j).trans (Read.val_main_cst_4_apply _)).trans Ideal.ofBits_one_f32

/-- The one that guards the variance's divisor. -/
private theorem v26_at (j : S8.Idx) : Read.val_main_v26 (F := Ideal) j = 1 :=
  ((Read.val_main_v26_apply j).trans (Read.val_main_cst_5_apply _)).trans Ideal.ofBits_one_f32

/-- The variance's guard: the same word as `eps`, kept as that word. -/
private theorem v38_at (j : S131072x512.Idx) : Read.val_main_v38 (F := Ideal) j = eps :=
  (Read.val_main_v38_apply j).trans (Read.val_main_cst_8_apply _)

/-- The wrapped id for the means' gather is the id. -/
private theorem v16_at (x1 : DVec) (hd : ∀ i : Fin 131072, (x1 (ix1 i)).toNat < 8) (i : Fin 131072) :
    Read.val_main_v16 (F := Ideal) x1 (ix1 i) = x1 (ix1 i) := by
  rw [Read.val_main_v16_apply, Read.val_main_v13_apply, Read.val_main_v12_apply, Read.val_main_c_apply]
  exact wrap_eq (hd i) _

/-- The wrapped id for the variances' gather is the id. -/
private theorem v35_at (x1 : DVec) (hd : ∀ i : Fin 131072, (x1 (ix1 i)).toNat < 8) (i : Fin 131072) :
    Read.val_main_v35 (F := Ideal) x1 (ix1 i) = x1 (ix1 i) := by
  rw [Read.val_main_v35_apply, Read.val_main_v32_apply, Read.val_main_v31_apply, Read.val_main_c_6_apply]
  exact wrap_eq (hd i) _

/-! ## The statistics -/

/-- The counts: the scatter-add of ones into zeros by the ids leaves at `k` the number of samples of domain `k`. -/
private theorem counts_apply (x1 : DVec) (hd : ∀ i : Fin 131072, (x1 (ix1 i)).toNat < 8) (k : Fin 8) :
    Read.val_main_v5 (F := Ideal) x1 (ix1 k) = cnt x1 k := by
  unfold Read.val_main_v5
  refine (VecGS.scatterAdd_vec_apply scatter_S8_S131072x1_S131072_n_0_0_1 rfl rfl rfl rfl _ _ _ k).trans ?_
  rw [v3_at, zero_add]
  unfold cnt
  refine Finset.sum_congr rfl fun e _ => ?_
  rw [v4_at, v2_at, ite_toInt_eq (hd e) k, mul_one]

/-- The sums: the scatter-add of the sample rows into zeros by the ids leaves at `(k, c)` the sum of domain `k`'s
    samples in channel `c`. -/
private theorem sums_apply (x0 : XArr) (x1 : DVec) (hd : ∀ i : Fin 131072, (x1 (ix1 i)).toNat < 8)
    (k : Fin 8) (c : Fin 512) :
    Read.val_main_v8 (F := Ideal) x0 x1 (ix2 k c) = ∑ i : Fin 131072, oh (x1 (ix1 i)) k * x0 (ix2 i c) := by
  unfold Read.val_main_v8
  refine (RowsGS.scatterAdd_rows2_apply scatter_S8x512_S131072x1_S131072x512_1_0_0_1 rfl rfl rfl rfl _ _ _ k c).trans ?_
  rw [v6_at, zero_add]
  refine Finset.sum_congr rfl fun e _ => ?_
  rw [v7_at, ite_toInt_eq (hd e) k]

/-- The mean table: sum over count. -/
private theorem mean_apply (x0 : XArr) (x1 : DVec) (hd : ∀ i : Fin 131072, (x1 (ix1 i)).toNat < 8)
    (k : Fin 8) (c : Fin 512) :
    Read.val_main_v11 (F := Ideal) x0 x1 (ix2 k c) = rMean x0 x1 k c := by
  unfold rMean
  rw [Read.val_main_v11_apply, Ideal.hostDivf_def, sums_apply x0 x1 hd, v10_at, v9_at, counts_apply x1 hd]

/-- The gathered means: row `i` of the gather is the mean table's row of sample `i`'s own domain. -/
private theorem gmean_apply (x0 : XArr) (x1 : DVec) (hd : ∀ i : Fin 131072, (x1 (ix1 i)).toNat < 8)
    (i : Fin 131072) (c : Fin 512) :
    Read.val_main_v18 (F := Ideal) x0 x1 (ix2 i c) = rMean x0 x1 (dom x1 i) c := by
  unfold Read.val_main_v18
  refine (RowsGS.gather_rows2_apply gather_S8x512_S131072x1_S131072x512_1_0_n_n_0_1_1512 rfl rfl rfl rfl rfl rfl rfl
    _ _ i c (dom x1 i) ?_).trans (mean_apply x0 x1 hd _ c)
  rw [v17_at, v16_at x1 hd]
  exact dom_toInt x1 hd i

/-- The deviations: a sample less its own domain's mean. -/
private theorem diff_apply (x0 : XArr) (x1 : DVec) (hd : ∀ i : Fin 131072, (x1 (ix1 i)).toNat < 8)
    (i : Fin 131072) (c : Fin 512) :
    Read.val_main_v19 (F := Ideal) x0 x1 (ix2 i c) = rDiff x0 x1 i c := by
  unfold rDiff
  rw [Read.val_main_v19_apply, Ideal.subf_def, gmean_apply x0 x1 hd]

/-- The sums of squares: the scatter-add of the squared deviations' rows by the ids. -/
private theorem sq_apply (x0 : XArr) (x1 : DVec) (hd : ∀ i : Fin 131072, (x1 (ix1 i)).toNat < 8)
    (k : Fin 8) (c : Fin 512) :
    Read.val_main_v23 (F := Ideal) x0 x1 (ix2 k c)
      = ∑ i : Fin 131072, oh (x1 (ix1 i)) k * (rDiff x0 x1 i c * rDiff x0 x1 i c) := by
  unfold Read.val_main_v23
  refine (RowsGS.scatterAdd_rows2_apply scatter_S8x512_S131072x1_S131072x512_1_0_0_1 rfl rfl rfl rfl _ _ _ k c).trans ?_
  rw [v21_at, zero_add]
  refine Finset.sum_congr rfl fun e _ => ?_
  rw [v22_at, ite_toInt_eq (hd e) k, Read.val_main_v20_apply, Ideal.mulf_def, diff_apply x0 x1 hd]

/-- The variance's divisor: the count less one, at least one. -/
private theorem denom_apply (x1 : DVec) (hd : ∀ i : Fin 131072, (x1 (ix1 i)).toNat < 8) (k : Fin 8) :
    Read.val_main_v27 (F := Ideal) x1 (ix1 k) = max (cnt x1 k - 1) 1 := by
  rw [Read.val_main_v27_apply, Ideal.maximumf_def, Read.val_main_v25_apply, Ideal.subf_def, counts_apply x1 hd,
    v24_at, v26_at]

/-- The variance table: sum of squares over the guarded divisor. -/
private theorem var_apply (x0 : XArr) (x1 : DVec) (hd : ∀ i : Fin 131072, (x1 (ix1 i)).toNat < 8)
    (k : Fin 8) (c : Fin 512) :
    Read.val_main_v30 (F := Ideal) x0 x1 (ix2 k c) = rVar x0 x1 k c := by
  unfold rVar
  rw [Read.val_main_v30_apply, Ideal.hostDivf_def, sq_apply x0 x1 hd, v29_at, v28_at, denom_apply x1 hd]

/-- The gathered variances: row `i` of the gather is the variance table's row of sample `i`'s own domain. -/
private theorem gvar_apply (x0 : XArr) (x1 : DVec) (hd : ∀ i : Fin 131072, (x1 (ix1 i)).toNat < 8)
    (i : Fin 131072) (c : Fin 512) :
    Read.val_main_v37 (F := Ideal) x0 x1 (ix2 i c) = rVar x0 x1 (dom x1 i) c := by
  unfold Read.val_main_v37
  refine (RowsGS.gather_rows2_apply gather_S8x512_S131072x1_S131072x512_1_0_n_n_0_1_1512 rfl rfl rfl rfl rfl rfl rfl
    _ _ i c (dom x1 i) ?_).trans (var_apply x0 x1 hd _ c)
  rw [v36_at, v35_at x1 hd]
  exact dom_toInt x1 hd i

/-- The reference's result at sample `i`, channel `ch`, where every domain id is one of the eight. -/
theorem ref_value (x0 : XArr) (x1 : DVec) (x2 x3 : Par) (hd : ∀ i : Fin 131072, (x1 (ix1 i)).toNat < 8)
    (i : Fin 131072) (ch : Fin 512) :
    Cert.ReferenceIdeal.Read.val_main_v45 (F := Ideal) x0 x1 x2 x3 (ix2 i ch) = refOut x0 x1 x2 x3 i ch := by
  unfold refOut
  rw [Read.val_main_v45_apply, Ideal.addf_def, Read.val_main_v43_apply, Ideal.mulf_def, Read.val_main_v41_apply,
    Ideal.mulf_def, Read.val_main_v40_apply, Ideal.hostUnary_rsqrt_def, Read.val_main_v39_apply, Ideal.addf_def,
    gvar_apply x0 x1 hd, v38_at, diff_apply x0 x1 hd, v42_at, v44_at]

end Cert.ReferenceIdeal.RefValue

end
-- ==== Proof.PreDecode.lean ====
/-
  What the precondition says: every sample and both parameter rows are finite, and every domain id is one of the eight.
-/
import proofs.«411909_j73443940761618_3_alg».proof.Pre_finite_inputs
import proofs.«411909_j73443940761618_3_alg».proof.Proof.Gen.Pre_finite_inputs
import proofs.«411909_j73443940761618_3_alg».proof.Proof.Spec
import Idealize.ShloMosaic.Lib.ReduceAll
import Idealize.ShloMosaic.Lib.StableHlo.Predicate
import Idealize.ShloMosaic.PureOps.Ideal.Laws

set_option maxRecDepth 16384

noncomputable section

namespace Cert.DomainNorm

open Idealize.ShloMosaic Idealize.ShloMosaic.ValueIdx

/-! ## One element of each conjunct -/

/-- The word `0x7F800000` is `+∞`. -/
private theorem inf_word : Ideal.ofBits .f32 0x7F800000#32 = (⊤ : EReal) := by simp [Ideal.ofBits, Ideal.ieee]

/-- An extended real whose absolute value `max x (−x)` compares below `+∞` is a real: at `−∞` and at `+∞` the absolute
    value is `+∞` itself. -/
private theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    unfold Ideal.cmp at h
    exact of_decide_eq_true ((StableHlo.Predicate.ofBool_eq_one_iff _).1 h)
  induction x using EReal.rec with
  | bot => exact absurd hlt (by simp)
  | top => exact absurd hlt (by simp)
  | coe r => exact ⟨r, rfl⟩

/-- A 32-bit word that compares, signed, at least `0` and below `8` is one of `0, …, 7` read unsigned: a word whose
    signed value is non-negative has the same unsigned value. -/
private theorem toNat_lt_eight (d : BitVec 32)
    (h : IntOp.andi (IntOp.cmpi .sge d 0#32) (IntOp.cmpi .slt d 8#32) = 1#1) : d.toNat < 8 := by
  obtain ⟨hge, hlt⟩ := IntOp.andi_eq_one.1 h
  rw [IntOp.cmpi_sge] at hge
  rw [IntOp.cmpi_slt] at hlt
  rw [show (0#32 : BitVec 32).toInt = 0 from by decide] at hge
  rw [show (8#32 : BitVec 32).toInt = 8 from by decide] at hlt
  rw [BitVec.toInt_eq_toNat_cond] at hge hlt
  have := d.isLt
  split at hge <;> omega

/-! ## The conjuncts: a conjunction over all elements that is one says its predicate of every element -/

/-- The conjunction over every entry of `|a| < +∞` being one: every entry of `a` is a real. -/
private theorem reals_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (a : s.Idx → EReal)
    (h : Host.reduce IntOp.andi
          (cmpf (F := Ideal) (φ := .f32) .olt (Host.absf (F := Ideal) (φ := .f32) a)
            (broadcastInDim s ![] hb (constant (F := Ideal) ⟨0, ![]⟩ .f32 0x7F800000#32)))
          (constantI ⟨0, ![]⟩ 1 1#1) hr hu ix0 = 1#1) :
    ∀ j, ∃ r : ℝ, a j = (r : EReal) := by
  intro j
  haveI : Subsingleton (⟨0, ![]⟩ : Shape).Idx := ⟨fun a b => funext fun d => d.elim0⟩
  exact real_of_abs_lt_inf (a j) (Host.reduce_andi_all _ _ hr hu ix0 h j)

/-- The conjunction over every id of `0 ≤ d ∧ d < 8` (signed comparisons) being one: every id, read unsigned, is below
    eight. -/
private theorem ids_of_all {n : Nat}
    (hb : (⟨0, ![]⟩ : Shape).BroadcastsInDim ⟨1, ![n]⟩ (![] : Fin 0 → Fin (⟨1, ![n]⟩ : Shape).rank))
    (hr : (⟨1, ![n]⟩ : Shape).ReducesTo [0] ⟨0, ![]⟩) (hu : 0 < (⟨0, ![]⟩ : Shape).numel) (d : IVec ⟨1, ![n]⟩ 32)
    (h : Host.reduce IntOp.andi
          (andi (cmpi .sge d (broadcastInDim ⟨1, ![n]⟩ ![] hb (constantI ⟨0, ![]⟩ 32 0#32)))
            (cmpi .slt d (broadcastInDim ⟨1, ![n]⟩ ![] hb (constantI ⟨0, ![]⟩ 32 8#32))))
          (constantI ⟨0, ![]⟩ 1 1#1) hr hu ix0 = 1#1) :
    ∀ i : Fin n, (d (ix1 i)).toNat < 8 := by
  intro i
  haveI : Subsingleton (⟨0, ![]⟩ : Shape).Idx := ⟨fun a b => funext fun d => d.elim0⟩
  exact toNat_lt_eight (d (ix1 i)) (Host.reduce_andi_all _ _ hr hu ix0 h (ix1 i))

/-- Four scalar bits joined by `and`, left to right, that come out one are all one. -/
private theorem and4 (a b c e : IVec ⟨0, ![]⟩ 1) (h : andi (andi (andi a b) c) e ix0 = 1#1) :
    a ix0 = 1#1 ∧ b ix0 = 1#1 ∧ c ix0 = 1#1 ∧ e ix0 = 1#1 := by
  obtain ⟨h1, he⟩ := IntOp.andi_eq_one.1 (show IntOp.andi (andi (andi a b) c ix0) (e ix0) = 1#1 from h)
  obtain ⟨h2, hc⟩ := IntOp.andi_eq_one.1 (show IntOp.andi (andi a b ix0) (c ix0) = 1#1 from h1)
  obtain ⟨ha, hb⟩ := IntOp.andi_eq_one.1 (show IntOp.andi (a ix0) (b ix0) = 1#1 from h2)
  exact ⟨ha, hb, hc, he⟩

/-- The printed precondition, all ones, decoded. -/
theorem pre_decode [Cert.Pre_finite_inputs.Facts] (x0 : XArr) (x1 : DVec) (x2 x3 : Par)
    (h : Cert.Pre_finite_inputs.fn (F := Ideal) x0 x1 x2 x3 = fun _ => 1#1) :
    (∀ j, ∃ r : ℝ, x0 j = (r : EReal)) ∧ (∀ i : Fin 131072, (x1 (ix1 i)).toNat < 8)
      ∧ (∀ j, ∃ r : ℝ, x2 j = (r : EReal)) ∧ (∀ j, ∃ r : ℝ, x3 j = (r : EReal)) := by
  -- the scalar result, read at its one index, is the conjunction of four scalar bits: the samples', the first
  -- parameter row's, the second parameter row's, and the ids'
  have h0 := congrFun h ix0
  dsimp only [Cert.Pre_finite_inputs.fn, Cert.Pre_finite_inputs.fn_part1] at h0
  obtain ⟨ha, hb, hc, hd⟩ := and4 _ _ _ _ h0
  exact ⟨reals_of_all _ _ _ x0 ha, ids_of_all _ _ _ x1 hd, reals_of_all _ _ _ x2 hb, reals_of_all _ _ _ x3 hc⟩

end Cert.DomainNorm

end
-- ==== Proof.Algebra.lean ====
/-
  The two arrangements of per-domain batch normalisation agree on finite samples with domain ids among the eight.
-/
import proofs.«411909_j73443940761618_3_alg».proof.Proof.Spec
import Mathlib.Data.EReal.Basic
import Mathlib.Data.EReal.Operations
import Mathlib.Data.EReal.Inv
import Mathlib.Analysis.SpecialFunctions.Pow.Real
import Mathlib.Tactic.Ring
import Mathlib.Tactic.Positivity

set_option maxRecDepth 16384

noncomputable section

namespace Cert.DomainNorm

open Idealize.ShloMosaic Idealize.ShloMosaic.ValueIdx

/-! ## Extended reals that are reals -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- The indicator is 0 or 1. -/
theorem oh_isR (w : BitVec 32) (k : Fin 8) : IsR (oh w k) := by
  unfold oh; split
  · exact IsR.one
  · exact IsR.zero

/-- A quotient of reals by a nonzero real is a real. -/
theorem IsR.div {x : EReal} (hx : IsR x) {y : ℝ} (hy : y ≠ 0) : IsR (Ideal.div x (y : EReal)) := by
  obtain ⟨a, rfl⟩ := hx
  rw [Ideal.div_coe hy]
  exact (IsR.coe a).mul (IsR.coe _)

/-! ## The rows, regrouped -/

/-- Half, block and row-in-block number the 131072 rows. -/
def rowEquiv : Fin 2 × Fin 32 × Fin 2048 ≃ Fin 131072 where
  toFun q := rowOf q.1 q.2.1 q.2.2
  invFun i := (⟨i.val / 65536, by have := i.isLt; omega⟩, ⟨i.val % 65536 / 2048, by have := i.isLt; omega⟩,
    ⟨i.val % 2048, by omega⟩)
  left_inv q := by
    obtain ⟨p, s, r⟩ := q
    have hp := p.isLt; have hs := s.isLt; have hr := r.isLt
    refine Prod.ext (Fin.ext ?_) (Prod.ext (Fin.ext ?_) (Fin.ext ?_)) <;> simp only [rowOf] <;> omega
  right_inv i := by
    refine Fin.ext ?_
    simp only [rowOf]
    have := i.isLt
    omega

/-- A sum over halves, blocks and rows-in-block is the sum over the rows. -/
theorem sum_rows (f : Fin 131072 → EReal) :
    ∑ p : Fin 2, ∑ s : Fin 32, ∑ r : Fin 2048, f (rowOf p s r) = ∑ i : Fin 131072, f i := by
  rw [← Equiv.sum_comp rowEquiv f, Fintype.sum_prod_type]
  refine Finset.sum_congr rfl fun p _ => ?_
  rw [Fintype.sum_prod_type]
  rfl

/-! ## A table's row read back through the indicator -/

/-- Where sample `i`'s id names a domain, reading a table back through the indicator gives that domain's entry: every other
    term of the sum is `0 · T k`, which is 0 for every extended real. -/
theorem pick_eq (d : DVec) (hd : ∀ i : Fin 131072, (d (ix1 i)).toNat < 8) (T : Fin 8 → EReal) (i : Fin 131072) :
    pick (dcol d) T i = T (dom d i) := by
  unfold pick
  rw [Finset.sum_eq_single (dom d i)]
  · have : oh (dcol d (ix2 i 0)) (dom d i) = 1 := by
      unfold oh; rw [if_pos]; show (d (ix1 i)).toNat = (d (ix1 i)).toNat % 8
      exact (Nat.mod_eq_of_lt (hd i)).symm
    rw [this, one_mul]
  · intro k _ hk
    have : oh (dcol d (ix2 i 0)) k = 0 := by
      unfold oh; rw [if_neg]; intro h
      apply hk; apply Fin.ext; show k.val = (d (ix1 i)).toNat % 8
      rw [Nat.mod_eq_of_lt (hd i)]; exact h.symm
    rw [this, zero_mul]
  · intro h; exact absurd (Finset.mem_univ _) h

/-! ## Counts -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The indicator as a real. -/
def ohR (w : BitVec 32) (k : Fin 8) : ℝ := if w.toNat = k.val then 1 else 0

theorem oh_eq (w : BitVec 32) (k : Fin 8) : oh w k = ((ohR w k : ℝ) : EReal) := by
  unfold oh ohR; split <;> simp

theorem ohR_nonneg (w : BitVec 32) (k : Fin 8) : 0 ≤ ohR w k := by
  unfold ohR; split <;> norm_num

/-- The number of samples of domain `k`, as a natural number. -/
def nOf (d : DVec) (k : Fin 8) : ℕ := (Finset.univ.filter fun i : Fin 131072 => (d (ix1 i)).toNat = k.val).card

/-- The count is that natural number. -/
theorem cnt_eq (d : DVec) (k : Fin 8) : cnt d k = ((nOf d k : ℝ) : EReal) := by
  unfold cnt
  simp only [oh_eq]
  rw [← coe_sum]
  refine congrArg (fun t : ℝ => (t : EReal)) ?_
  unfold ohR nOf
  rw [Finset.sum_boole]

/-- A sample's own domain is not empty. -/
theorem one_le_nOf (d : DVec) (hd : ∀ i : Fin 131072, (d (ix1 i)).toNat < 8) (i : Fin 131072) : 1 ≤ nOf d (dom d i) := by
  unfold nOf
  apply Finset.card_pos.mpr
  refine ⟨i, Finset.mem_filter.mpr ⟨Finset.mem_univ _, ?_⟩⟩
  show (d (ix1 i)).toNat = (d (ix1 i)).toNat % 8
  exact (Nat.mod_eq_of_lt (hd i)).symm

/-- So guarding its count against zero changes nothing. -/
theorem max_cnt_one (d : DVec) (hd : ∀ i : Fin 131072, (d (ix1 i)).toNat < 8) (i : Fin 131072) :
    max (cnt d (dom d i)) 1 = cnt d (dom d i) := by
  apply max_eq_left
  rw [cnt_eq]
  have h : (1 : ℝ) ≤ (nOf d (dom d i) : ℝ) := by exact_mod_cast one_le_nOf d hd i
  exact_mod_cast h

/-- The variance's divisor `max (n − 1) 1` is a real that is at least 1. -/
theorem denom_eq (d : DVec) (k : Fin 8) :
    ∃ y : ℝ, 1 ≤ y ∧ max (cnt d k - 1) 1 = (y : EReal) := by
  refine ⟨max ((nOf d k : ℝ) - 1) 1, le_max_right _ _, ?_⟩
  rw [cnt_eq]
  rcases le_total ((nOf d k : ℝ) - 1) 1 with h | h
  · rw [max_eq_right h, max_eq_right]
    · rfl
    · have : ((nOf d k : ℝ) : EReal) - 1 = (((nOf d k : ℝ) - 1 : ℝ) : EReal) := by norm_cast
      rw [this]; exact_mod_cast h
  · rw [max_eq_left h, max_eq_left]
    · norm_cast
    · have : ((nOf d k : ℝ) : EReal) - 1 = (((nOf d k : ℝ) - 1 : ℝ) : EReal) := by norm_cast
      rw [this]; exact_mod_cast h

/-! ## The sums and the means -/

/-- The two halves' shares of a per-row quantity add up to its sum over all rows. -/
theorem halves_add (f : Fin 131072 → EReal) :
    (∑ s : Fin 32, ∑ r : Fin 2048, f (rowOf 0 s r)) + (∑ s : Fin 32, ∑ r : Fin 2048, f (rowOf 1 s r)) = ∑ i : Fin 131072, f i := by
  rw [← sum_rows f, Fin.sum_univ_two]

/-- The two halves' sums added are the domain's sum. -/
theorem partSum_add (X : XArr) (d : DVec) (k : Fin 8) (c : Fin 512) :
    partSum X (dcol d) 0 k c + partSum X (dcol d) 1 k c = ∑ j : Fin 131072, oh (d (ix1 j)) k * X (ix2 j c) := by
  unfold partSum
  exact halves_add fun j => oh (d (ix1 j)) k * X (ix2 j c)

/-- At a sample's own domain the guarded mean is the mean. -/
theorem mean_agree (X : XArr) (d : DVec) (hd : ∀ i : Fin 131072, (d (ix1 i)).toNat < 8) (j : Fin 131072) (c : Fin 512) :
    kMean X d (dom d j) c = rMean X d (dom d j) c := by
  unfold kMean rMean
  rw [partSum_add, max_cnt_one d hd j]

/-- The mean of a sample's own domain is a real. -/
theorem rMean_isR (X : XArr) (d : DVec) (hX : ∀ j, ∃ r : ℝ, X j = (r : EReal))
    (hd : ∀ i : Fin 131072, (d (ix1 i)).toNat < 8) (j : Fin 131072) (c : Fin 512) : IsR (rMean X d (dom d j) c) := by
  unfold rMean
  rw [cnt_eq]
  refine IsR.div (IsR.sum _ _ fun i _ => (oh_isR _ _).mul (hX _)) ?_
  have := one_le_nOf d hd j
  have h : (1 : ℝ) ≤ (nOf d (dom d j) : ℝ) := by exact_mod_cast this
  linarith

/-- So is a sample's deviation from it. -/
theorem rDiff_isR (X : XArr) (d : DVec) (hX : ∀ j, ∃ r : ℝ, X j = (r : EReal))
    (hd : ∀ i : Fin 131072, (d (ix1 i)).toNat < 8) (j : Fin 131072) (c : Fin 512) : IsR (rDiff X d j c) :=
  IsR.sub (hX _) (rMean_isR X d hX hd j c)

/-! ## The variances -/

/-- The two halves' sums of squared deviations about the guarded mean, added, are the domain's sum of squared deviations
    about the mean: each row reads back its own domain's mean, where the two means agree. -/
theorem partSq_add (X : XArr) (d : DVec) (hd : ∀ i : Fin 131072, (d (ix1 i)).toNat < 8) (k : Fin 8) (c : Fin 512) :
    partSq X (dcol d) (tab (kMean X d)) 0 k c + partSq X (dcol d) (tab (kMean X d)) 1 k c
      = ∑ j : Fin 131072, oh (d (ix1 j)) k * (rDiff X d j c * rDiff X d j c) := by
  have key : ∀ j : Fin 131072,
      X (ix2 j c) - pick (dcol d) (fun k' => tab (kMean X d) (ix2 k' c)) j = rDiff X d j c := by
    intro j
    rw [pick_eq d hd]
    show X (ix2 j c) - kMean X d (dom d j) c = _
    rw [mean_agree X d hd j c]
    rfl
  unfold partSq
  simp only [key]
  exact halves_add fun j => oh (d (ix1 j)) k * (rDiff X d j c * rDiff X d j c)

/-- So the two variances are one. -/
theorem kVar_eq (X : XArr) (d : DVec) (hd : ∀ i : Fin 131072, (d (ix1 i)).toNat < 8) (k : Fin 8) (c : Fin 512) :
    kVar X d k c = rVar X d k c := by
  unfold kVar rVar
  rw [partSq_add X d hd]

/-- The variance is a non-negative real. -/
theorem rVar_nonneg (X : XArr) (d : DVec) (hX : ∀ j, ∃ r : ℝ, X j = (r : EReal))
    (hd : ∀ i : Fin 131072, (d (ix1 i)).toNat < 8) (k : Fin 8) (c : Fin 512) :
    ∃ v : ℝ, 0 ≤ v ∧ rVar X d k c = (v : EReal) := by
  choose r hr using fun j => rDiff_isR X d hX hd j c
  obtain ⟨y, hy1, hy⟩ := denom_eq d k
  have hy0 : y ≠ 0 := by linarith
  refine ⟨(∑ j : Fin 131072, ohR (d (ix1 j)) k * (r j * r j)) * (1 / y), ?_, ?_⟩
  · apply mul_nonneg
    · exact Finset.sum_nonneg fun j _ => mul_nonneg (ohR_nonneg _ _) (mul_self_nonneg _)
    · positivity
  · unfold rVar
    rw [hy, Ideal.div_coe hy0, EReal.coe_mul, coe_sum]
    refine congrArg (fun t : EReal => t * ((1 / y : ℝ) : EReal)) ?_
    refine Finset.sum_congr rfl fun j _ => ?_
    rw [hr j, oh_eq, EReal.coe_mul, EReal.coe_mul]

/-! ## The guard ε and the reciprocal square root -/

/-- ε is a positive real. -/
theorem eps_pos : ∃ e : ℝ, 0 < e ∧ eps = (e : EReal) := by
  have h1 : ((0x3727C5AC#32 : BitVec 32).extractLsb' (8 + 23) 1 == 1#1) = false := by decide
  have h2 : ((0x3727C5AC#32 : BitVec 32).extractLsb' 23 8).toNat = 110 := by decide
  have h3 : ((0x3727C5AC#32 : BitVec 32).extractLsb' 0 23).toNat = 2606508 := by decide
  refine ⟨(1 : ℝ) * ((2 ^ 23 + 2606508 : ℕ) : ℝ) * (2 : ℝ) ^ ((110 : ℤ) - (2 ^ (8 - 1) - 1) - 23), by positivity, ?_⟩
  unfold eps Ideal.ofBits Ideal.ieee
  simp only [h1, h2, h3]
  norm_num

/-- The reciprocal square root of a positive real is a real. -/
theorem rsqrt_isR {r : ℝ} (hr : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-! ## The two arrangements agree -/

/-- The blocked arrangement is the direct one. -/
theorem kerOut_eq_refOut (X : XArr) (d : DVec) (mean std : Par)
    (hX : ∀ j, ∃ r : ℝ, X j = (r : EReal)) (hd : ∀ i : Fin 131072, (d (ix1 i)).toNat < 8)
    (hm : ∀ j, ∃ r : ℝ, mean j = (r : EReal)) (hs : ∀ j, ∃ r : ℝ, std j = (r : EReal))
    (i : Fin 131072) (c : Fin 512) :
    kerOut X d mean std i c = refOut X d mean std i c := by
  have hA : kAB X d mean std (ix2 (dom d i) ⟨c.val, by have := c.isLt; omega⟩) = kA X d std (dom d i) c := by
    unfold kAB
    rw [tab_ix2]
    exact dif_pos c.isLt
  have hB : kAB X d mean std (ix2 (dom d i) ⟨512 + c.val, by have := c.isLt; omega⟩) = kB X d mean std (dom d i) c := by
    unfold kAB
    rw [tab_ix2]
    have hn : ¬ (512 + c.val < 512) := by omega
    rw [dif_neg hn]
    congr 1
    exact Fin.ext (by simp)
  unfold kerOut normed
  rw [pick_eq d hd, pick_eq d hd, hA, hB]
  unfold kB kA refOut
  rw [kVar_eq X d hd, mean_agree X d hd i c]
  unfold rDiff
  obtain ⟨x, hx⟩ := hX (ix2 i c)
  obtain ⟨μ, hμ⟩ := rMean_isR X d hX hd i c
  obtain ⟨v, hv0, hv⟩ := rVar_nonneg X d hX hd (dom d i) c
  obtain ⟨e, he0, he⟩ := eps_pos
  obtain ⟨s, hs'⟩ := hs (ix2 0 c)
  obtain ⟨m, hm'⟩ := hm (ix2 0 c)
  have hsum : rVar X d (dom d i) c + eps = ((v + e : ℝ) : EReal) := by rw [hv, he]; exact (EReal.coe_add v e).symm
  obtain ⟨R, hR⟩ := rsqrt_isR (r := v + e) (by linarith)
  rw [hsum, hR, hx, hμ, hs', hm']
  have : x * (R * s) + (m - μ * (R * s)) = (x - μ) * R * s + m := by ring
  exact_mod_cast this

end Cert.DomainNorm

end
-- ==== Proof.lean ====
/- Per-domain batch normalisation of 131072 samples with 512 channels over 8 domains: a kernel program of three launches
   against a plain reference, equal over the extended reals wherever every sample and both parameter rows are finite and
   every domain id is one of the eight.

   The kernel program forms each domain's channel sums in two halves of 32 blocks of 2048 rows (first launch), divides by
   the guarded counts, forms the sums of squared deviations the same way (second launch), builds the scale
   `A = (σ² + ε)^(−1/2) · std` and the shift `B = mean − μ · A` on the host, and writes `x · A + B` (third launch); a
   domain's rows are selected, and a table's row is read back, by products with a 0/1 indicator. The reference sums each
   domain's samples directly and writes `(x − μ) · (σ² + ε)^(−1/2) · std + mean`.

   Proof/Spec.lean states both arrangements; Proof/KRegion0–2.lean read the three launches' result arrays;
   Proof/KHost.lean threads them through the host operations; Proof/RefValue.lean reads the reference;
   Proof/PreDecode.lean says what the precondition gives; Proof/Algebra.lean shows the two arrangements agree:
   the indicator sums regroup by associativity and commutativity alone, and the last step,
   `x · A + (mean − μ · A) = (x − μ) · (σ² + ε)^(−1/2) · std + mean`, is distributivity, which is where finiteness is used. -/
import proofs.«411909_j73443940761618_3_alg».proof.Defs
import proofs.«411909_j73443940761618_3_alg».proof.Proof.Gen.Kernel
import proofs.«411909_j73443940761618_3_alg».proof.Proof.Gen.Kernel.Frame
import proofs.«411909_j73443940761618_3_alg».proof.Proof.Gen.KernelIdeal
import proofs.«411909_j73443940761618_3_alg».proof.Proof.Gen.KernelIdeal.Frame
import proofs.«411909_j73443940761618_3_alg».proof.Proof.Gen.ReferenceIdeal
import proofs.«411909_j73443940761618_3_alg».proof.Proof.Gen.Pre_finite_inputs
import proofs.«411909_j73443940761618_3_alg».proof.Proof.Gen.ReferenceIdeal.Run
import proofs.«411909_j73443940761618_3_alg».proof.Proof.Gen.ReferenceIdeal.Read
import proofs.«411909_j73443940761618_3_alg».proof.Proof.KRun
import proofs.«411909_j73443940761618_3_alg».proof.Proof.KHost
import proofs.«411909_j73443940761618_3_alg».proof.Proof.RefValue
import proofs.«411909_j73443940761618_3_alg».proof.Proof.PreDecode
import proofs.«411909_j73443940761618_3_alg».proof.Proof.Algebra
import Idealize.ShloMosaic.Adequacy
import Idealize.ShloMosaic.Init

noncomputable section

namespace Cert.Proof

open Idealize.ShloMosaic Idealize.ShloMosaic.ValueIdx Idealize.SL.Sem Cert.DomainNorm

/-- The word-level kernel program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the direct arrangement `refOut` of the arguments: the kernel program's blocked arrangement is
    equal to it on finite samples with ids among the eight, and the reference computes it. -/
theorem algebraic : Cert.algebraic_KernelIdeal_ReferenceIdeal := by
  intro m ρ m' ρ' hpre hagree
  have hdec := fun c => pre_decode _ _ _ _ (hpre c)
  refine ⟨fun c => tab (refOut (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3))), ?_, ?_⟩
  · refine (θ_run Cert.KernelIdeal.defs _ _).mono (fun _ h c => ⟨(h c).1.trans ?_, (h c).2⟩)
      (Cert.KernelIdeal.Val.run_result (F := Ideal) m ρ)
    funext j
    obtain ⟨i, ch, rfl⟩ : ∃ (i : Fin 131072) (ch : Fin 512), j = ix2 i ch := ⟨j 0, j 1, eq_ix2 j⟩
    rw [Cert.KernelIdeal.Val.kernel_value m ρ c (hdec c).2.1 i ch,
      kerOut_eq_refOut _ _ _ _ (hdec c).1 (hdec c).2.1 (hdec c).2.2.1 (hdec c).2.2.2 i ch]
    rfl
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, (hagree c).1, (hagree c).2.1, (hagree c).2.2.1, (hagree c).2.2.2]
    funext j
    obtain ⟨i, ch, rfl⟩ : ∃ (i : Fin 131072) (ch : Fin 512), j = ix2 i ch := ⟨j 0, j 1, eq_ix2 j⟩
    rw [Cert.ReferenceIdeal.RefValue.ref_value _ _ _ _ (hdec c).2.1 i ch]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
